-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v103)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x1000000 : Shape := ⟨2, ![2, 1000000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128x256 .f32) (main_arg14 : FVec F S128x256 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x256 .f32 := Host.absf main_arg13
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128x256 .f32 := Host.absf main_arg14
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S256 .f32) (main_arg10 : FVec F S128x256 .f32) (main_arg11 : FVec F S128x256 .f32) (main_arg12 : FVec F S128 .f32) (main_arg13 : FVec F S128x256 .f32) (main_arg14 : FVec F S128x256 .f32) (main_arg15 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x256 .f32 := Host.absf main_arg10
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128x256 .f32 := Host.absf main_arg11
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S256 .f32) (main_arg7 : FVec F S256x128 .f32) (main_arg8 : FVec F S256x128 .f32) (main_arg9 : FVec F S256 .f32) (main_arg10 : FVec F S128x256 .f32) (main_arg11 : FVec F S128x256 .f32) (main_arg12 : FVec F S128 .f32) (main_arg13 : FVec F S128x256 .f32) (main_arg14 : FVec F S128x256 .f32) (main_arg15 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S200000x128 .f32) (main_arg1 : FVec F S200000x128 .f32) (main_arg2 : IVec S2x1000000 32) (main_arg3 : IVec S2x1000000 32) (main_arg4 : FVec F S256x128 .f32) (main_arg5 : FVec F S256x128 .f32) (main_arg6 : FVec F S256 .f32) (main_arg7 : FVec F S256x128 .f32) (main_arg8 : FVec F S256x128 .f32) (main_arg9 : FVec F S256 .f32) (main_arg10 : FVec F S128x256 .f32) (main_arg11 : FVec F S128x256 .f32) (main_arg12 : FVec F S128 .f32) (main_arg13 : FVec F S128x256 .f32) (main_arg14 : FVec F S128x256 .f32) (main_arg15 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S200000x128 : Shape := ⟨2, ![200000, 128]⟩
abbrev S2x1000000 : Shape := ⟨2, ![2, 1000000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S200000 : Shape := ⟨1, ![200000]⟩
abbrev S200000x1 : Shape := ⟨2, ![200000, 1]⟩
abbrev S200000x256 : Shape := ⟨2, ![200000, 256]⟩
abbrev S4000x128 : Shape := ⟨2, ![4000, 128]⟩
abbrev S4000x256 : Shape := ⟨2, ![4000, 256]⟩
abbrev S1x256 : Shape := ⟨2, ![1, 256]⟩
abbrev S1000000x256 : Shape := ⟨2, ![1000000, 256]⟩
abbrev S1x128 : Shape := ⟨2, ![1, 128]⟩

abbrev nBuf : Space → Nat
  | .hbm => 144
  | .vmem => 36
  | .smem => 0
  | _ => 0

abbrev hbmTy0_0 (i : Nat) : BufTy := match i % 128 with
  | 0 => ⟨S200000x128, .f32⟩
  | 1 => ⟨S200000x128, .f32⟩
  | 2 => ⟨S2x1000000, .i32⟩
  | 3 => ⟨S2x1000000, .i32⟩
  | 4 => ⟨S256x128, .f32⟩
  | 5 => ⟨S256x128, .f32⟩
  | 6 => ⟨S256, .f32⟩
  | 7 => ⟨S256x128, .f32⟩
  | 8 => ⟨S256x128, .f32⟩
  | 9 => ⟨S256, .f32⟩
  | 10 => ⟨S128x256, .f32⟩
  | 11 => ⟨S128x256, .f32⟩
  | 12 => ⟨S128, .f32⟩
  | 13 => ⟨S128x256, .f32⟩
  | 14 => ⟨S128x256, .f32⟩
  | 15 => ⟨S128, .f32⟩
  | 16 => ⟨S1x1000000, .i32⟩
  | 17 => ⟨S1000000, .i32⟩
  | 18 => ⟨S1x1000000, .i32⟩
  | 19 => ⟨S1000000, .i32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000x128, .f32⟩
  | 29 => ⟨S_, .f32⟩
  | 30 => ⟨S200000x128, .f32⟩
  | 31 => ⟨S1000000x1, .i32⟩
  | 32 => ⟨S200000x128, .f32⟩
  | 33 => ⟨S_, .f32⟩
  | 34 => ⟨S1000000, .f32⟩
  | 35 => ⟨S_, .f32⟩
  | 36 => ⟨S200000, .f32⟩
  | 37 => ⟨S1000000x1, .i32⟩
  | 38 => ⟨S200000, .f32⟩
  | 39 => ⟨S_, .f32⟩
  | 40 => ⟨S200000, .f32⟩
  | 41 => ⟨S200000, .f32⟩
  | 42 => ⟨S200000x1, .f32⟩
  | 43 => ⟨S200000x128, .f32⟩
  | 44 => ⟨S200000x128, .f32⟩
  | 45 => ⟨S128x256, .f32⟩
  | 46 => ⟨S128x256, .f32⟩
  | 47 => ⟨S200000x256, .f32⟩
  | 48 => ⟨S1x1000000, .i32⟩
  | 49 => ⟨S1000000, .i32⟩
  | 50 => ⟨S1x1000000, .i32⟩
  | 51 => ⟨S1000000, .i32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x128, .f32⟩
  | 61 => ⟨S_, .f32⟩
  | 62 => ⟨S200000x128, .f32⟩
  | 63 => ⟨S1000000x1, .i32⟩
  | 64 => ⟨S200000x128, .f32⟩
  | 65 => ⟨S_, .f32⟩
  | 66 => ⟨S1000000, .f32⟩
  | 67 => ⟨S_, .f32⟩
  | 68 => ⟨S200000, .f32⟩
  | 69 => ⟨S1000000x1, .i32⟩
  | 70 => ⟨S200000, .f32⟩
  | 71 => ⟨S_, .f32⟩
  | 72 => ⟨S200000, .f32⟩
  | 73 => ⟨S200000, .f32⟩
  | 74 => ⟨S200000x1, .f32⟩
  | 75 => ⟨S200000x128, .f32⟩
  | 76 => ⟨S200000x128, .f32⟩
  | 77 => ⟨S128x256, .f32⟩
  | 78 => ⟨S128x256, .f32⟩
  | 79 => ⟨S200000x256, .f32⟩
  | 80 => ⟨S1x1000000, .i32⟩
  | 81 => ⟨S1000000, .i32⟩
  | 82 => ⟨S1x1000000, .i32⟩
  | 83 => ⟨S1000000, .i32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000x256, .f32⟩
  | 93 => ⟨S_, .f32⟩
  | 94 => ⟨S200000x256, .f32⟩
  | 95 => ⟨S1000000x1, .i32⟩
  | 96 => ⟨S200000x256, .f32⟩
  | 97 => ⟨S_, .f32⟩
  | 98 => ⟨S1000000, .f32⟩
  | 99 => ⟨S_, .f32⟩
  | 100 => ⟨S200000, .f32⟩
  | 101 => ⟨S1000000x1, .i32⟩
  | 102 => ⟨S200000, .f32⟩
  | 103 => ⟨S_, .f32⟩
  | 104 => ⟨S200000, .f32⟩
  | 105 => ⟨S200000, .f32⟩
  | 106 => ⟨S200000x1, .f32⟩
  | 107 => ⟨S200000x256, .f32⟩
  | 108 => ⟨S200000x256, .f32⟩
  | 109 => ⟨S256x128, .f32⟩
  | 110 => ⟨S256x128, .f32⟩
  | 111 => ⟨S200000x128, .f32⟩
  | 112 => ⟨S1x1000000, .i32⟩
  | 113 => ⟨S1000000, .i32⟩
  | 114 => ⟨S1x1000000, .i32⟩
  | 115 => ⟨S1000000, .i32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S1000000x1, .i32⟩
  | 124 => ⟨S1000000x256, .f32⟩
  | 125 => ⟨S_, .f32⟩
  | 126 => ⟨S200000x256, .f32⟩
  | 127 => ⟨S1000000x1, .i32⟩
  | _ => ⟨S200000x128, .f32⟩

abbrev hbmTy0_1 (i : Nat) : BufTy := match i % 128 with
  | 0 => ⟨S200000x256, .f32⟩
  | 1 => ⟨S_, .f32⟩
  | 2 => ⟨S1000000, .f32⟩
  | 3 => ⟨S_, .f32⟩
  | 4 => ⟨S200000, .f32⟩
  | 5 => ⟨S1000000x1, .i32⟩
  | 6 => ⟨S200000, .f32⟩
  | 7 => ⟨S_, .f32⟩
  | 8 => ⟨S200000, .f32⟩
  | 9 => ⟨S200000, .f32⟩
  | 10 => ⟨S200000x1, .f32⟩
  | 11 => ⟨S200000x256, .f32⟩
  | 12 => ⟨S200000x256, .f32⟩
  | 13 => ⟨S256x128, .f32⟩
  | 14 => ⟨S256x128, .f32⟩
  | 15 => ⟨S200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x256, .f32⟩
  | .local _ .vmem, ⟨5, _⟩ => ⟨S128x256, .f32⟩
  | .local _ .vmem, ⟨6, _⟩ => ⟨S256, .f32⟩
  | .local _ .vmem, ⟨7, _⟩ => ⟨S4000x256, .f32⟩
  | .local _ .vmem, ⟨8, _⟩ => ⟨S4000x256, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x256, .f32⟩
  | .local _ .vmem, ⟨14, _⟩ => ⟨S128x256, .f32⟩
  | .local _ .vmem, ⟨15, _⟩ => ⟨S256, .f32⟩
  | .local _ .vmem, ⟨16, _⟩ => ⟨S4000x256, .f32⟩
  | .local _ .vmem, ⟨17, _⟩ => ⟨S4000x256, .f32⟩
  | .local _ .vmem, ⟨18, _⟩ => ⟨S4000x256, .f32⟩
  | .local _ .vmem, ⟨19, _⟩ => ⟨S4000x256, .f32⟩
  | .local _ .vmem, ⟨20, _⟩ => ⟨S4000x256, .f32⟩
  | .local _ .vmem, ⟨21, _⟩ => ⟨S4000x256, .f32⟩
  | .local _ .vmem, ⟨22, _⟩ => ⟨S256x128, .f32⟩
  | .local _ .vmem, ⟨23, _⟩ => ⟨S256x128, .f32⟩
  | .local _ .vmem, ⟨24, _⟩ => ⟨S128, .f32⟩
  | .local _ .vmem, ⟨25, _⟩ => ⟨S4000x128, .f32⟩
  | .local _ .vmem, ⟨26, _⟩ => ⟨S4000x128, .f32⟩
  | .local _ .vmem, ⟨27, _⟩ => ⟨S4000x256, .f32⟩
  | .local _ .vmem, ⟨28, _⟩ => ⟨S4000x256, .f32⟩
  | .local _ .vmem, ⟨29, _⟩ => ⟨S4000x256, .f32⟩
  | .local _ .vmem, ⟨30, _⟩ => ⟨S4000x256, .f32⟩
  | .local _ .vmem, ⟨31, _⟩ => ⟨S256x128, .f32⟩
  | .local _ .vmem, ⟨32, _⟩ => ⟨S256x128, .f32⟩
  | .local _ .vmem, ⟨33, _⟩ => ⟨S128, .f32⟩
  | .local _ .vmem, ⟨34, _⟩ => ⟨S4000x128, .f32⟩
  | .local _ .vmem, ⟨35, _⟩ => ⟨S4000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_c_16 : Ref sig .tc := ⟨.hbm, 116, rfl⟩
abbrev main_v82 : Ref sig .tc := ⟨.hbm, 117, rfl⟩
abbrev main_v83 : Ref sig .tc := ⟨.hbm, 118, rfl⟩
abbrev main_c_17 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_18 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_19 : Ref sig .tc := ⟨.hbm, 129, rfl⟩
abbrev main_v92 : Ref sig .tc := ⟨.hbm, 130, rfl⟩
abbrev main_cst_20 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_21 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  transposes_S256x128_S128x256_1_0 : S256x128.Transposes [1, 0] S128x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  bcast_S_S200000x256 : S_.BroadcastsInDim S200000x256 (![] : Fin 0 → Fin S200000x256.rank)
  bcast_S200000x1_S200000x256_0_1 : S200000x1.BroadcastsInDim S200000x256 (![0, 1] : Fin 2 → Fin S200000x256.rank)
  transposes_S128x256_S256x128_1_0 : S128x256.Transposes [1, 0] S256x128
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  gather_S200000x128_S1000000x1_S1000000x128_1_0_n_n_0_1_1128_wf : GatherDims.WF S200000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  dot_S4000x128_S128x256_S4000x256_1_0_0_1_n_n_wf : DotDims.WF S4000x128 S128x256 S4000x256 [1] [0] [0] [1] [] []
  gather_S200000x256_S1000000x1_S1000000x256_1_0_n_n_0_1_1256_wf : GatherDims.WF S200000x256 S1000000x1 S1000000x256 [1] [0] [] [0] [] 1 ![1, 256]
  scatter_S200000x256_S1000000x1_S1000000x256_1_0_0_1_wf : ScatterDims.WF S200000x256 S1000000x1 S1000000x256 [1] [0] [0] 1
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S200000x128.size a
  hwx0_1 : ∀ i : grid0.Coords, EltTy.bits .f32 = 32 ∨ (Rect.block (s := S200000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S200000x256.size a
  hwx0_5 : ∀ i : grid0.Coords, EltTy.bits .f32 = 32 ∨ (Rect.block (s := S200000x256) S4000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S200000x128.size a
  hwx1_0 : ∀ i : grid1.Coords, EltTy.bits .f32 = 32 ∨ (Rect.block (s := S200000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S200000x128.size a
  hwx1_1 : ∀ i : grid1.Coords, EltTy.bits .f32 = 32 ∨ (Rect.block (s := S200000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x256.size a ≤ S200000x256.size a
  hwx1_5 : ∀ i : grid1.Coords, EltTy.bits .f32 = 32 ∨ (Rect.block (s := S200000x256) S4000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S200000x256.size a
  hwx2_0 : ∀ i : grid2.Coords, EltTy.bits .f32 = 32 ∨ (Rect.block (s := S200000x256) S4000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x256.size a ≤ S200000x256.size a
  hwx2_1 : ∀ i : grid2.Coords, EltTy.bits .f32 = 32 ∨ (Rect.block (s := S200000x256) S4000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S200000x128.size a
  hwx2_5 : ∀ i : grid2.Coords, EltTy.bits .f32 = 32 ∨ (Rect.block (s := S200000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x256.size a ≤ S200000x256.size a
  hwx3_0 : ∀ i : grid3.Coords, EltTy.bits .f32 = 32 ∨ (Rect.block (s := S200000x256) S4000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x256.size a ≤ S200000x256.size a
  hwx3_1 : ∀ i : grid3.Coords, EltTy.bits .f32 = 32 ∨ (Rect.block (s := S200000x256) S4000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S200000x128.size a
  hwx3_5 : ∀ i : grid3.Coords, EltTy.bits .f32 = 32 ∨ (Rect.block (s := S200000x128) S4000x128.size (cc3_transform_5 i) (hinb3_5 i)).WholeWords (EltTy.packing .f32)

variable [Facts₀]

def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S200000x256_S1000000x1_S1000000x256_1_0_n_n_0_1_1256 : GatherDims S200000x256 S1000000x1 S1000000x256 where
  offsetDims := [1]
  collapsedSliceDims := [0]
  operandBatchingDims := []
  startIndicesBatchingDims := []
  startIndexMap := [0]
  indexVectorDim := 1
  sliceSizes := ![1, 256]
  wf := gather_S200000x256_S1000000x1_S1000000x256_1_0_n_n_0_1_1256_wf
def scatter_S200000x256_S1000000x1_S1000000x256_1_0_0_1 : ScatterDims S200000x256 S1000000x1 S1000000x256 where
  updateWindowDims := [1]
  insertedWindowDims := [0]
  scatterDimsToOperandDims := [0]
  indexVectorDim := 1
  wf := scatter_S200000x256_S1000000x1_S1000000x256_1_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v48) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S4000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v74) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S4000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v75) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v77) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v100) S4000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S4000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v101) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v102) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v103) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S200000x128 : Shape := ⟨2, ![200000, 128]⟩
abbrev S2x1000000 : Shape := ⟨2, ![2, 1000000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S200000 : Shape := ⟨1, ![200000]⟩
abbrev S200000x1 : Shape := ⟨2, ![200000, 1]⟩
abbrev S200000x256 : Shape := ⟨2, ![200000, 256]⟩
abbrev S1x256 : Shape := ⟨2, ![1, 256]⟩
abbrev S1000000x256 : Shape := ⟨2, ![1000000, 256]⟩
abbrev S1x128 : Shape := ⟨2, ![1, 128]⟩

abbrev nBuf : Space → Nat
  | .hbm => 170
  | .vmem => 0
  | .smem => 0
  | _ => 0

abbrev hbmTy0_0 (i : Nat) : BufTy := match i % 128 with
  | 0 => ⟨S200000x128, .f32⟩
  | 1 => ⟨S200000x128, .f32⟩
  | 2 => ⟨S2x1000000, .i32⟩
  | 3 => ⟨S2x1000000, .i32⟩
  | 4 => ⟨S256x128, .f32⟩
  | 5 => ⟨S256x128, .f32⟩
  | 6 => ⟨S256, .f32⟩
  | 7 => ⟨S256x128, .f32⟩
  | 8 => ⟨S256x128, .f32⟩
  | 9 => ⟨S256, .f32⟩
  | 10 => ⟨S128x256, .f32⟩
  | 11 => ⟨S128x256, .f32⟩
  | 12 => ⟨S128, .f32⟩
  | 13 => ⟨S128x256, .f32⟩
  | 14 => ⟨S128x256, .f32⟩
  | 15 => ⟨S128, .f32⟩
  | 16 => ⟨S1x1000000, .i32⟩
  | 17 => ⟨S1000000, .i32⟩
  | 18 => ⟨S1x1000000, .i32⟩
  | 19 => ⟨S1000000, .i32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000x128, .f32⟩
  | 29 => ⟨S_, .f32⟩
  | 30 => ⟨S200000x128, .f32⟩
  | 31 => ⟨S1000000x1, .i32⟩
  | 32 => ⟨S200000x128, .f32⟩
  | 33 => ⟨S_, .f32⟩
  | 34 => ⟨S1000000, .f32⟩
  | 35 => ⟨S_, .f32⟩
  | 36 => ⟨S200000, .f32⟩
  | 37 => ⟨S1000000x1, .i32⟩
  | 38 => ⟨S200000, .f32⟩
  | 39 => ⟨S_, .f32⟩
  | 40 => ⟨S200000, .f32⟩
  | 41 => ⟨S200000, .f32⟩
  | 42 => ⟨S200000x1, .f32⟩
  | 43 => ⟨S200000x128, .f32⟩
  | 44 => ⟨S200000x128, .f32⟩
  | 45 => ⟨S128x256, .f32⟩
  | 46 => ⟨S200000x256, .f32⟩
  | 47 => ⟨S1x256, .f32⟩
  | 48 => ⟨S200000x256, .f32⟩
  | 49 => ⟨S200000x256, .f32⟩
  | 50 => ⟨S128x256, .f32⟩
  | 51 => ⟨S200000x256, .f32⟩
  | 52 => ⟨S200000x256, .f32⟩
  | 53 => ⟨S_, .f32⟩
  | 54 => ⟨S200000x256, .f32⟩
  | 55 => ⟨S200000x256, .f32⟩
  | 56 => ⟨S1x1000000, .i32⟩
  | 57 => ⟨S1000000, .i32⟩
  | 58 => ⟨S1x1000000, .i32⟩
  | 59 => ⟨S1000000, .i32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x128, .f32⟩
  | 69 => ⟨S_, .f32⟩
  | 70 => ⟨S200000x128, .f32⟩
  | 71 => ⟨S1000000x1, .i32⟩
  | 72 => ⟨S200000x128, .f32⟩
  | 73 => ⟨S_, .f32⟩
  | 74 => ⟨S1000000, .f32⟩
  | 75 => ⟨S_, .f32⟩
  | 76 => ⟨S200000, .f32⟩
  | 77 => ⟨S1000000x1, .i32⟩
  | 78 => ⟨S200000, .f32⟩
  | 79 => ⟨S_, .f32⟩
  | 80 => ⟨S200000, .f32⟩
  | 81 => ⟨S200000, .f32⟩
  | 82 => ⟨S200000x1, .f32⟩
  | 83 => ⟨S200000x128, .f32⟩
  | 84 => ⟨S200000x128, .f32⟩
  | 85 => ⟨S128x256, .f32⟩
  | 86 => ⟨S200000x256, .f32⟩
  | 87 => ⟨S1x256, .f32⟩
  | 88 => ⟨S200000x256, .f32⟩
  | 89 => ⟨S200000x256, .f32⟩
  | 90 => ⟨S128x256, .f32⟩
  | 91 => ⟨S200000x256, .f32⟩
  | 92 => ⟨S200000x256, .f32⟩
  | 93 => ⟨S_, .f32⟩
  | 94 => ⟨S200000x256, .f32⟩
  | 95 => ⟨S200000x256, .f32⟩
  | 96 => ⟨S1x1000000, .i32⟩
  | 97 => ⟨S1000000, .i32⟩
  | 98 => ⟨S1x1000000, .i32⟩
  | 99 => ⟨S1000000, .i32⟩
  | 100 => ⟨S_, .i32⟩
  | 101 => ⟨S1000000, .i32⟩
  | 102 => ⟨S1000000, .i1⟩
  | 103 => ⟨S_, .i32⟩
  | 104 => ⟨S1000000, .i32⟩
  | 105 => ⟨S1000000, .i32⟩
  | 106 => ⟨S1000000, .i32⟩
  | 107 => ⟨S1000000x1, .i32⟩
  | 108 => ⟨S1000000x256, .f32⟩
  | 109 => ⟨S_, .f32⟩
  | 110 => ⟨S200000x256, .f32⟩
  | 111 => ⟨S1000000x1, .i32⟩
  | 112 => ⟨S200000x256, .f32⟩
  | 113 => ⟨S_, .f32⟩
  | 114 => ⟨S1000000, .f32⟩
  | 115 => ⟨S_, .f32⟩
  | 116 => ⟨S200000, .f32⟩
  | 117 => ⟨S1000000x1, .i32⟩
  | 118 => ⟨S200000, .f32⟩
  | 119 => ⟨S_, .f32⟩
  | 120 => ⟨S200000, .f32⟩
  | 121 => ⟨S200000, .f32⟩
  | 122 => ⟨S200000x1, .f32⟩
  | 123 => ⟨S200000x256, .f32⟩
  | 124 => ⟨S200000x256, .f32⟩
  | 125 => ⟨S256x128, .f32⟩
  | 126 => ⟨S200000x128, .f32⟩
  | 127 => ⟨S1x128, .f32⟩
  | _ => ⟨S200000x128, .f32⟩

abbrev hbmTy0_1 (i : Nat) : BufTy := match i % 128 with
  | 0 => ⟨S200000x128, .f32⟩
  | 1 => ⟨S200000x128, .f32⟩
  | 2 => ⟨S256x128, .f32⟩
  | 3 => ⟨S200000x128, .f32⟩
  | 4 => ⟨S200000x128, .f32⟩
  | 5 => ⟨S1x1000000, .i32⟩
  | 6 => ⟨S1000000, .i32⟩
  | 7 => ⟨S1x1000000, .i32⟩
  | 8 => ⟨S1000000, .i32⟩
  | 9 => ⟨S_, .i32⟩
  | 10 => ⟨S1000000, .i32⟩
  | 11 => ⟨S1000000, .i1⟩
  | 12 => ⟨S_, .i32⟩
  | 13 => ⟨S1000000, .i32⟩
  | 14 => ⟨S1000000, .i32⟩
  | 15 => ⟨S1000000, .i32⟩
  | 16 => ⟨S1000000x1, .i32⟩
  | 17 => ⟨S1000000x256, .f32⟩
  | 18 => ⟨S_, .f32⟩
  | 19 => ⟨S200000x256, .f32⟩
  | 20 => ⟨S1000000x1, .i32⟩
  | 21 => ⟨S200000x256, .f32⟩
  | 22 => ⟨S_, .f32⟩
  | 23 => ⟨S1000000, .f32⟩
  | 24 => ⟨S_, .f32⟩
  | 25 => ⟨S200000, .f32⟩
  | 26 => ⟨S1000000x1, .i32⟩
  | 27 => ⟨S200000, .f32⟩
  | 28 => ⟨S_, .f32⟩
  | 29 => ⟨S200000, .f32⟩
  | 30 => ⟨S200000, .f32⟩
  | 31 => ⟨S200000x1, .f32⟩
  | 32 => ⟨S200000x256, .f32⟩
  | 33 => ⟨S200000x256, .f32⟩
  | 34 => ⟨S256x128, .f32⟩
  | 35 => ⟨S200000x128, .f32⟩
  | 36 => ⟨S1x128, .f32⟩
  | 37 => ⟨S200000x128, .f32⟩
  | 38 => ⟨S200000x128, .f32⟩
  | 39 => ⟨S256x128, .f32⟩
  | 40 => ⟨S200000x128, .f32⟩
  | 41 => ⟨S200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call0_cst : Ref sig .tc := ⟨.hbm, 53, rfl⟩
abbrev main_call0_v0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_4 : Ref sig .tc := ⟨.hbm, 60, rfl⟩
abbrev main_v36 : Ref sig .tc := ⟨.hbm, 61, rfl⟩
abbrev main_v37 : Ref sig .tc := ⟨.hbm, 62, rfl⟩
abbrev main_c_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_call1_cst : Ref sig .tc := ⟨.hbm, 93, rfl⟩
abbrev main_call1_v0 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_10 : Ref sig .tc := ⟨.hbm, 100, rfl⟩
abbrev main_v68 : Ref sig .tc := ⟨.hbm, 101, rfl⟩
abbrev main_v69 : Ref sig .tc := ⟨.hbm, 102, rfl⟩
abbrev main_c_11 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_12 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_13 : Ref sig .tc := ⟨.hbm, 113, rfl⟩
abbrev main_v78 : Ref sig .tc := ⟨.hbm, 114, rfl⟩
abbrev main_cst_14 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_15 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_16 : Ref sig .tc := ⟨.hbm, 137, rfl⟩
abbrev main_v99 : Ref sig .tc := ⟨.hbm, 138, rfl⟩
abbrev main_v100 : Ref sig .tc := ⟨.hbm, 139, rfl⟩
abbrev main_c_17 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_18 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_19 : Ref sig .tc := ⟨.hbm, 150, rfl⟩
abbrev main_v109 : Ref sig .tc := ⟨.hbm, 151, rfl⟩
abbrev main_cst_20 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_21 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  transposes_S256x128_S128x256_1_0 : S256x128.Transposes [1, 0] S128x256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S200000x1_S200000x256_0_1 : S200000x1.BroadcastsInDim S200000x256 (![0, 1] : Fin 2 → Fin S200000x256.rank)
  transposes_S128x256_S256x128_1_0 : S128x256.Transposes [1, 0] S256x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  gather_S200000x128_S1000000x1_S1000000x128_1_0_n_n_0_1_1128_wf : GatherDims.WF S200000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  dot_S200000x128_S128x256_S200000x256_1_0_0_1_n_n_wf : DotDims.WF S200000x128 S128x256 S200000x256 [1] [0] [0] [1] [] []
  gather_S200000x256_S1000000x1_S1000000x256_1_0_n_n_0_1_1256_wf : GatherDims.WF S200000x256 S1000000x1 S1000000x256 [1] [0] [] [0] [] 1 ![1, 256]
  scatter_S200000x256_S1000000x1_S1000000x256_1_0_0_1_wf : ScatterDims.WF S200000x256 S1000000x1 S1000000x256 [1] [0] [0] 1
  dot_S200000x256_S256x128_S200000x128_1_0_0_1_n_n_wf : DotDims.WF S200000x256 S256x128 S200000x128 [1] [0] [0] [1] [] []

variable [Facts₀]

def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S200000x128_S128x256_S200000x256_1_0_0_1_n_n : DotDims S200000x128 S128x256 S200000x256 where
  lhsContracting := [1]
  rhsContracting := [0]
  lhsNonContracting := [0]
  rhsNonContracting := [1]
  lhsBatch := []
  rhsBatch := []
  wf := dot_S200000x128_S128x256_S200000x256_1_0_0_1_n_n_wf
def gather_S200000x256_S1000000x1_S1000000x256_1_0_n_n_0_1_1256 : GatherDims S200000x256 S1000000x1 S1000000x256 where
  offsetDims := [1]
  collapsedSliceDims := [0]
  operandBatchingDims := []
  startIndicesBatchingDims := []
  startIndexMap := [0]
  indexVectorDim := 1
  sliceSizes := ![1, 256]
  wf := gather_S200000x256_S1000000x1_S1000000x256_1_0_n_n_0_1_1256_wf
def scatter_S200000x256_S1000000x1_S1000000x256_1_0_0_1 : ScatterDims S200000x256 S1000000x1 S1000000x256 where
  updateWindowDims := [1]
  insertedWindowDims := [0]
  scatterDimsToOperandDims := [0]
  indexVectorDim := 1
  wf := scatter_S200000x256_S1000000x1_S1000000x256_1_0_0_1_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf

class Facts : Prop extends Facts₀ where

variable [Facts]
-- ==== Proof.Spec.lean ====
/-
  One GraphSAGE layer's dense combine, as a function of whole arrays over the extended reals.

  Row `r` of the layer's result is  mean[r, :] · Wl + x[r, :] · Wr + b : the aggregated neighbour mean
  times the left weights, the node's own features times the right weights, and the bias. Both weight
  arrays arrive already transposed (contraction axis first). The first layer clips the sum below at zero.

  The order in which the three summands are added does not matter: addition of extended reals is
  commutative and associative (with the convention ⊥ + ⊤ = ⊥ it is still a commutative monoid), so
  "(A + B) + b" and "(A + b) + B" are the same extended real. That is the one law that joins the two
  programs; it needs no finiteness.
-/
import Idealize.ShloMosaic.PureOps.Ideal
import Idealize.ShloMosaic.Lib.ValueIdx

noncomputable section

open scoped BigOperators
open Idealize.ShloMosaic Idealize.ShloMosaic.ValueIdx

namespace Cert.Sage

/-- Layer 1 before the clip, at row `r` and output column `q`: 128 input features, 256 output features. -/
def pre1 (mean x : (⟨2, ![200000, 128]⟩ : Shape).Idx → EReal) (wl wr : (⟨2, ![128, 256]⟩ : Shape).Idx → EReal)
    (b : (⟨1, ![256]⟩ : Shape).Idx → EReal) (r : Fin 200000) (q : Fin 256) : EReal :=
  (∑ k : Fin 128, mean (ix2 r k) * wl (ix2 k q)) + (∑ k : Fin 128, x (ix2 r k) * wr (ix2 k q)) + b (ix1 q)

/-- Layer 1: the combine clipped below at zero. -/
def layer1 (mean x : (⟨2, ![200000, 128]⟩ : Shape).Idx → EReal) (wl wr : (⟨2, ![128, 256]⟩ : Shape).Idx → EReal)
    (b : (⟨1, ![256]⟩ : Shape).Idx → EReal) : (⟨2, ![200000, 256]⟩ : Shape).Idx → EReal :=
  fun i => max (pre1 mean x wl wr b (i 0) (i 1)) 0

/-- Layer 2 (no clip), at row `r` and output column `q`: 256 input features, 128 output features. -/
def pre2 (mean x : (⟨2, ![200000, 256]⟩ : Shape).Idx → EReal) (wl wr : (⟨2, ![256, 128]⟩ : Shape).Idx → EReal)
    (b : (⟨1, ![128]⟩ : Shape).Idx → EReal) (r : Fin 200000) (q : Fin 128) : EReal :=
  (∑ k : Fin 256, mean (ix2 r k) * wl (ix2 k q)) + (∑ k : Fin 256, x (ix2 r k) * wr (ix2 k q)) + b (ix1 q)

/-- Layer 2 as an array. -/
def layer2 (mean x : (⟨2, ![200000, 256]⟩ : Shape).Idx → EReal) (wl wr : (⟨2, ![256, 128]⟩ : Shape).Idx → EReal)
    (b : (⟨1, ![128]⟩ : Shape).Idx → EReal) : (⟨2, ![200000, 128]⟩ : Shape).Idx → EReal :=
  fun i => pre2 mean x wl wr b (i 0) (i 1)

/-- The bias may be added before or after the second product. -/
theorem add_bias_comm (A B b : EReal) : A + b + B = A + B + b := add_right_comm A b B

end Cert.Sage

end
-- ==== Proof.Agg.lean ====
/-
  The part of a GraphSAGE layer that both programs compute with the same host operations, and the whole
  two-layer network as a function of its sixteen argument arrays.

  For an edge list `e` (row 0 the source node of each edge, row 1 its destination) and a feature array `x`
  of the source node type, the neighbour mean of destination node `v` is

      ( Σ over edges j with dst j = v of  x[src j, :] )  /  max (number of such edges) 1 .

  It is written here exactly as the programs spell it: a negative source index wraps around once, the rows
  are gathered, scatter-added into a zero array at the destinations, the ones are scatter-added likewise to
  count the edges, the count is clipped below at one and broadcast along the feature axis, and the sums are
  divided by it. Nothing in the certificate opens this chain: it enters both sides as one function.

  A layer then combines that mean with the destination nodes' own features (`Cert.Sage.layer1`, `layer2`),
  the weight arrays transposed first.
-/
import proofs.«104268_j69020124446814_1_alg».proof.KernelIdeal
import proofs.«104268_j69020124446814_1_alg».proof.Proof.Gen.KernelIdeal
import proofs.«104268_j69020124446814_1_alg».proof.Proof.Spec

noncomputable section

open Idealize.ShloMosaic Idealize.ShloMosaic.TcCoe
open Cert.KernelIdeal Cert.KernelIdeal.Facts₀ Cert.KernelIdeal.Facts

namespace Cert.Sage

variable {F : FTy → Type} [FloatOps F]

/-- Row `r` of the edge list as a flat vector of node ids. -/
def edgeRow0 (e : (⟨S2x1000000, .i32⟩ : BufTy).Contents (Elt F)) : (⟨S1000000, .i32⟩ : BufTy).Contents (Elt F) :=
  shapeCast _ (extractStridedSlice S1x1000000 ![0, 0] e slices_S2x1000000_S1x1000000_0_0) shapeCasts_S1x1000000_S1000000

def edgeRow1 (e : (⟨S2x1000000, .i32⟩ : BufTy).Contents (Elt F)) : (⟨S1000000, .i32⟩ : BufTy).Contents (Elt F) :=
  shapeCast _ (extractStridedSlice S1x1000000 ![1, 0] e slices_S2x1000000_S1x1000000_1_0) shapeCasts_S1x1000000_S1000000

/-- The source ids as a column of gather indices, a negative id wrapped around by the node count. -/
def srcCol (e : (⟨S2x1000000, .i32⟩ : BufTy).Contents (Elt F)) : (⟨S1000000x1, .i32⟩ : BufTy).Contents (Elt F) :=
  broadcastInDim S1000000x1 ![0] bcast_S1000000_S1000000x1_0
    (select (cmpi .slt (edgeRow0 (F := F) e) (broadcastInDim S1000000 ![] bcast_S_S1000000 (constantI S_ 32 0#32)))
      (addi (edgeRow0 (F := F) e) (broadcastInDim S1000000 ![] bcast_S_S1000000 (constantI S_ 32 200000#32)))
      (edgeRow0 (F := F) e))

/-- The destination ids as a column of scatter indices. -/
def dstCol (e : (⟨S2x1000000, .i32⟩ : BufTy).Contents (Elt F)) : (⟨S1000000x1, .i32⟩ : BufTy).Contents (Elt F) :=
  broadcastInDim S1000000x1 ![0] bcast_S1000000_S1000000x1_0 (edgeRow1 (F := F) e)

/-- The number of edges into each destination node, clipped below at one. -/
def degClip (e : (⟨S2x1000000, .i32⟩ : BufTy).Contents (Elt F)) : (⟨S200000, .f32⟩ : BufTy).Contents (Elt F) :=
  maximumf
    (Host.scatterAdd scatter_S200000_S1000000x1_S1000000_n_0_0_1
      (broadcastInDim S200000 ![] bcast_S_S200000 (constant S_ .f32 0x00000000#32))
      (dstCol (F := F) e)
      (broadcastInDim S1000000 ![] bcast_S_S1000000 (constant S_ .f32 0x3F800000#32)))
    (broadcastInDim S200000 ![] bcast_S_S200000 (constant S_ .f32 0x3F800000#32))

/-- The neighbour mean of 128-feature rows. -/
def agg128 (x : (⟨S200000x128, .f32⟩ : BufTy).Contents (Elt F)) (e : (⟨S2x1000000, .i32⟩ : BufTy).Contents (Elt F)) :
    (⟨S200000x128, .f32⟩ : BufTy).Contents (Elt F) :=
  Host.divf
    (Host.scatterAdd scatter_S200000x128_S1000000x1_S1000000x128_1_0_0_1
      (broadcastInDim S200000x128 ![] bcast_S_S200000x128 (constant S_ .f32 0x00000000#32))
      (dstCol (F := F) e)
      (Host.gather gather_S200000x128_S1000000x1_S1000000x128_1_0_n_n_0_1_1128 x (srcCol (F := F) e)))
    (broadcastInDim S200000x128 ![0, 1] bcast_S200000x1_S200000x128_0_1
      (broadcastInDim S200000x1 ![0] bcast_S200000_S200000x1_0 (degClip (F := F) e)))

/-- The neighbour mean of 256-feature rows. -/
def agg256 (x : (⟨S200000x256, .f32⟩ : BufTy).Contents (Elt F)) (e : (⟨S2x1000000, .i32⟩ : BufTy).Contents (Elt F)) :
    (⟨S200000x256, .f32⟩ : BufTy).Contents (Elt F) :=
  Host.divf
    (Host.scatterAdd scatter_S200000x256_S1000000x1_S1000000x256_1_0_0_1
      (broadcastInDim S200000x256 ![] bcast_S_S200000x256 (constant S_ .f32 0x00000000#32))
      (dstCol (F := F) e)
      (Host.gather gather_S200000x256_S1000000x1_S1000000x256_1_0_n_n_0_1_1256 x (srcCol (F := F) e)))
    (broadcastInDim S200000x256 ![0, 1] bcast_S200000x1_S200000x256_0_1
      (broadcastInDim S200000x1 ![0] bcast_S200000_S200000x1_0 (degClip (F := F) e)))

/-- A first-layer weight array with its contraction axis first. -/
def tr1 (w : (⟨S256x128, .f32⟩ : BufTy).Contents (Elt F)) : (⟨S128x256, .f32⟩ : BufTy).Contents (Elt F) :=
  transpose S128x256 [1, 0] w transposes_S256x128_S128x256_1_0

/-- A second-layer weight array with its contraction axis first. -/
def tr2 (w : (⟨S128x256, .f32⟩ : BufTy).Contents (Elt F)) : (⟨S256x128, .f32⟩ : BufTy).Contents (Elt F) :=
  transpose S256x128 [1, 0] w transposes_S128x256_S256x128_1_0

/-! ## The network over the extended reals -/

/-- One first-layer convolution: messages from `xsrc` along `e`, combined with `xdst`, clipped at zero. -/
def conv1 (xsrc xdst : (⟨S200000x128, .f32⟩ : BufTy).Contents (Elt Ideal)) (e : (⟨S2x1000000, .i32⟩ : BufTy).Contents (Elt Ideal))
    (wl wr : (⟨S256x128, .f32⟩ : BufTy).Contents (Elt Ideal)) (b : (⟨S256, .f32⟩ : BufTy).Contents (Elt Ideal)) :
    (⟨S200000x256, .f32⟩ : BufTy).Contents (Elt Ideal) :=
  layer1 (agg128 (F := Ideal) xsrc e) xdst (tr1 (F := Ideal) wl) (tr1 (F := Ideal) wr) b

/-- One second-layer convolution (no clip). -/
def conv2 (hsrc hdst : (⟨S200000x256, .f32⟩ : BufTy).Contents (Elt Ideal)) (e : (⟨S2x1000000, .i32⟩ : BufTy).Contents (Elt Ideal))
    (wl wr : (⟨S128x256, .f32⟩ : BufTy).Contents (Elt Ideal)) (b : (⟨S128, .f32⟩ : BufTy).Contents (Elt Ideal)) :
    (⟨S200000x128, .f32⟩ : BufTy).Contents (Elt Ideal) :=
  layer2 (agg256 (F := Ideal) hsrc e) hdst (tr2 (F := Ideal) wl) (tr2 (F := Ideal) wr) b

/-- The item nodes' hidden features: messages from the users along the user→item edges. -/
def hItem (xu xi : (⟨S200000x128, .f32⟩ : BufTy).Contents (Elt Ideal)) (eui : (⟨S2x1000000, .i32⟩ : BufTy).Contents (Elt Ideal))
    (wl1ui wr1ui : (⟨S256x128, .f32⟩ : BufTy).Contents (Elt Ideal)) (b1ui : (⟨S256, .f32⟩ : BufTy).Contents (Elt Ideal)) :
    (⟨S200000x256, .f32⟩ : BufTy).Contents (Elt Ideal) :=
  conv1 xu xi eui wl1ui wr1ui b1ui

/-- The user nodes' hidden features: messages from the items along the item→user edges. -/
def hUser (xu xi : (⟨S200000x128, .f32⟩ : BufTy).Contents (Elt Ideal)) (eiu : (⟨S2x1000000, .i32⟩ : BufTy).Contents (Elt Ideal))
    (wl1iu wr1iu : (⟨S256x128, .f32⟩ : BufTy).Contents (Elt Ideal)) (b1iu : (⟨S256, .f32⟩ : BufTy).Contents (Elt Ideal)) :
    (⟨S200000x256, .f32⟩ : BufTy).Contents (Elt Ideal) :=
  conv1 xi xu eiu wl1iu wr1iu b1iu

/-- The network's first result, the users' output features, from the argument arrays in the programs' order. -/
def outUser (xu xi : (⟨S200000x128, .f32⟩ : BufTy).Contents (Elt Ideal)) (eui eiu : (⟨S2x1000000, .i32⟩ : BufTy).Contents (Elt Ideal))
    (wl1ui wr1ui : (⟨S256x128, .f32⟩ : BufTy).Contents (Elt Ideal)) (b1ui : (⟨S256, .f32⟩ : BufTy).Contents (Elt Ideal))
    (wl1iu wr1iu : (⟨S256x128, .f32⟩ : BufTy).Contents (Elt Ideal)) (b1iu : (⟨S256, .f32⟩ : BufTy).Contents (Elt Ideal))
    (wl2iu wr2iu : (⟨S128x256, .f32⟩ : BufTy).Contents (Elt Ideal)) (b2iu : (⟨S128, .f32⟩ : BufTy).Contents (Elt Ideal)) :
    (⟨S200000x128, .f32⟩ : BufTy).Contents (Elt Ideal) :=
  conv2 (hItem xu xi eui wl1ui wr1ui b1ui) (hUser xu xi eiu wl1iu wr1iu b1iu) eiu wl2iu wr2iu b2iu

/-- The network's second result, the items' output features. -/
def outItem (xu xi : (⟨S200000x128, .f32⟩ : BufTy).Contents (Elt Ideal)) (eui eiu : (⟨S2x1000000, .i32⟩ : BufTy).Contents (Elt Ideal))
    (wl1ui wr1ui : (⟨S256x128, .f32⟩ : BufTy).Contents (Elt Ideal)) (b1ui : (⟨S256, .f32⟩ : BufTy).Contents (Elt Ideal))
    (wl1iu wr1iu : (⟨S256x128, .f32⟩ : BufTy).Contents (Elt Ideal)) (b1iu : (⟨S256, .f32⟩ : BufTy).Contents (Elt Ideal))
    (wl2ui wr2ui : (⟨S128x256, .f32⟩ : BufTy).Contents (Elt Ideal)) (b2ui : (⟨S128, .f32⟩ : BufTy).Contents (Elt Ideal)) :
    (⟨S200000x128, .f32⟩ : BufTy).Contents (Elt Ideal) :=
  conv2 (hUser xu xi eiu wl1iu wr1iu b1iu) (hItem xu xi eui wl1ui wr1ui b1ui) eui wl2ui wr2ui b2ui

end Cert.Sage

end
-- ==== Proof.KBody0.lean ====
/-
  What region 0's kernel body stores for a block of 4000 rows, read at one entry.

  The body multiplies the block of neighbour means and the block of the nodes' own features by the two weight
  arrays, adds the two products, adds the bias row to every row, and clips the result below at zero. Over the extended reals
  a change of float format is the identity and a matrix product into a zero accumulator is the plain sum over
  the contracted axis, so entry (p, q) of the stored block is

      max (Σ_k mean[p, k] · wl[k, q]  +  Σ_k x[p, k] · wr[k, q]  +  b[q]) 0 .
-/
import proofs.«104268_j69020124446814_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx
open Cert.KernelIdeal Cert.KernelIdeal.Facts₀ Cert.KernelIdeal.Facts

namespace Cert.KernelIdeal.Body0

/-! ## The product of a row block with a weight array, one entry at a time -/

theorem lhs_axis0 (i : S4000x256.Idx) (q : dot_S4000x128_S128x256_S4000x256_1_0_0_1_n_n.contr.Idx) :
    (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem lhs_axis1 (i : S4000x256.Idx) (q : dot_S4000x128_S128x256_S4000x256_1_0_0_1_n_n.contr.Idx) :
    (dot_S4000x128_S128x256_S4000x256_1_0_0_1_n_n.lhsIdx i q 1).val = (q ⟨0, by decide⟩).val :=
  dot_S4000x128_S128x256_S4000x256_1_0_0_1_n_n.lhsIdx_val_of_single rfl i q
theorem rhs_axis0 (i : S4000x256.Idx) (q : dot_S4000x128_S128x256_S4000x256_1_0_0_1_n_n.contr.Idx) :
    (dot_S4000x128_S128x256_S4000x256_1_0_0_1_n_n.rhsIdx i q 0).val = (q ⟨0, by decide⟩).val :=
  dot_S4000x128_S128x256_S4000x256_1_0_0_1_n_n.rhsIdx_val_of_single rfl i q
theorem rhs_axis1 (i : S4000x256.Idx) (q : dot_S4000x128_S128x256_S4000x256_1_0_0_1_n_n.contr.Idx) :
    (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- Entry (p, q) of a block times a weight array, accumulated into zero, is the sum over the 128 contracted
    features of the products. -/
theorem product_apply (a : FVec Ideal S4000x128 .bf16) (w : FVec Ideal S128x256 .bf16) (p : Fin 4000) (q : Fin 256) :
    matmul dot_S4000x128_S128x256_S4000x256_1_0_0_1_n_n none a w (constant S4000x256 .f32 0x00000000#32) (ix2 p q)
      = ∑ k : Fin 128, a (ix2 p k) * w (ix2 k q) := by
  simp only [matmul]
  rw [Ideal.matmul_constant_zero_apply, ← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 p q) ((contrEquiv1 dot_S4000x128_S128x256_S4000x256_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S4000x128_S128x256_S4000x256_1_0_0_1_n_n.rhsIdx (ix2 p q) ((contrEquiv1 dot_S4000x128_S128x256_S4000x256_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The bias row under every row of the block -/

/-- The bias vector, given a leading unit axis and repeated down the block's rows, read at (p, q) is its entry q. -/
theorem bias_apply (b : Vec Ideal S256 .f32) (p : Fin 4000) (q : Fin 256) :
    broadcastTo S4000x256 (shapeCast S1x256 b shapeCasts_S256_S1x256) broadcasts_S1x256_S4000x256 (ix2 p q) = b (ix1 q) := by
  rw [broadcastTo_apply (shapeCast S1x256 b shapeCasts_S256_S1x256) broadcasts_S1x256_S4000x256 (ix2 p q) (ix2 (0 : Fin 1) q) (fun a => by
    match a with
    | ⟨0, _⟩ => rfl
    | ⟨1, _⟩ => show q.val = if (256 : Nat) = 1 then 0 else q.val; rw [if_neg (by decide)])]
  exact (shapeCast_addUnit_apply (n := 1) ![256] b shapeCasts_S256_S1x256 (ix2 (0 : Fin 1) q)).trans
    (congrArg b (funext fun a => by match a with | ⟨0, _⟩ => rfl))

/-! ## The stored block at an entry -/

theorem payload_apply (x0 x1 : Vec Ideal S4000x128 .f32) (x2 x3 : Vec Ideal S128x256 .f32) (x4 : Vec Ideal S256 .f32)
    (p : Fin 4000) (q : Fin 256) :
    Gen.k0_pay1 (F := Ideal) x0 x1 x2 x3 x4 (ix2 p q)
      = max ((∑ k : Fin 128, x0 (ix2 p k) * x2 (ix2 k q)) + (∑ k : Fin 128, x1 (ix2 p k) * x3 (ix2 k q)) + x4 (ix1 q)) 0 := by
  unfold Gen.k0_pay1
  simp only [shapeCast_self]
  refine (congrArg₂ max (congrArg₂ (· + ·) (congrArg₂ (· + ·) (product_apply _ _ p q) (product_apply _ _ p q))
    (bias_apply x4 p q)) Ideal.ofBits_zero_f32).trans ?_
  rfl

end Cert.KernelIdeal.Body0

end
-- ==== Proof.KRegion0.lean ====
import proofs.«104268_j69020124446814_1_alg».proof.Proof.Gen.KernelIdeal.Frame
import proofs.«104268_j69020124446814_1_alg».proof.Proof.Spec
import proofs.«104268_j69020124446814_1_alg».proof.Proof.KBody0
import Idealize.ShloMosaic.Lib.Pipeline.Value
set_option maxRecDepth 16384

noncomputable section

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-!
  Region 0 as a whole-array function.

  The region runs its body at 50 grid points. Point `t` reads rows 4000·t … 4000·t + 3999 of the neighbour-mean array
  and of the nodes' own feature array, the two weight arrays and the bias whole, and writes back the same rows of the
  result. An entry of the written block is the body's value at that entry (`Body0.payload_apply`), whose operands are the
  arrays' entries in row 4000·t + p; so every block is the restriction of ONE function of the whole arrays, the layer's
  combine `Cert.Sage.layer1`, and since the 50 row blocks cover all 200000 rows the result array ends holding it.
-/

namespace Cert.KernelIdeal.RegionValue

variable (V : (c : Dev nD) → (b : Ref sig .tc) → Buf (Elt Ideal) ((c : Thread nD τ).loc b))

theorem zero_off2_0 : (![0, 0] : Fin 2 → Nat) = fun _ => 0 := funext fun a => by fin_cases a <;> rfl
theorem zero_off1_0 : (![0] : Fin 1 → Nat) = fun _ => 0 := funext fun a => by fin_cases a <;> rfl

/-- The printed index maps over the 50 grid points: the two row-blocked inputs sit at the output's block row, in block
    column 0; the weights and the bias are always block 0; the output's block row is below 50. -/
theorem blocks_at0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) ≤ 49 ∧ win0_5.index t (1 : Fin 2) = 0 :=
  (by decide +kernel : ∀ t : Fin grid0.N, _)

/-- Every one of the 50 row blocks is some point's. -/
theorem block_row_onto0 : ∀ (r : Fin 50), ∃ t : Fin cfg0.N, win0_5.index t = ![r.val, 0] :=
  (by decide +kernel : ∀ (r : Fin 50), ∃ t : Fin grid0.N, win0_5.index t = ![r.val, 0])

/-! ## The input blocks read where the output block's rows are -/

theorem mean_block0 (c : Dev nD) (t : Fin cfg0.N) (p : Fin 4000) (k : Fin 128) (r : Fin 200000)
    (hr : r.val = win0_5.index t (0 : Fin 2) * 4000 + p.val) :
    iblk0 V c 0 t (ix2 p k) = V c main_v22 (ix2 r k) := by
  obtain ⟨e0, e1, -⟩ := blocks_at0 t
  show V c main_v22 (((cfg0.win 0).blk t).view.emb (ix2 p k)) = V c main_v22 (ix2 r k)
  refine congrArg (V c main_v22) (funext fun a => Fin.ext ?_)
  match a with
  | ⟨0, _⟩ => show win0_0.index t (0 : Fin 2) * 4000 + 1 * p.val = r.val; omega
  | ⟨1, _⟩ => show win0_0.index t (1 : Fin 2) * 128 + 1 * k.val = k.val; omega

theorem self_block0 (c : Dev nD) (t : Fin cfg0.N) (p : Fin 4000) (k : Fin 128) (r : Fin 200000)
    (hr : r.val = win0_5.index t (0 : Fin 2) * 4000 + p.val) :
    iblk0 V c 1 t (ix2 p k) = V c main_arg1 (ix2 r k) := by
  obtain ⟨-, -, e2, e3, -⟩ := blocks_at0 t
  show V c main_arg1 (((cfg0.win 1).blk t).view.emb (ix2 p k)) = V c main_arg1 (ix2 r k)
  refine congrArg (V c main_arg1) (funext fun a => Fin.ext ?_)
  match a with
  | ⟨0, _⟩ => show win0_1.index t (0 : Fin 2) * 4000 + 1 * p.val = r.val; omega
  | ⟨1, _⟩ => show win0_1.index t (1 : Fin 2) * 128 + 1 * k.val = k.val; omega

theorem wl_block0 (c : Dev nD) (t : Fin cfg0.N) (k : Fin 128) (q : Fin 256) :
    iblk0 V c 2 t (ix2 k q) = V c main_v23 (ix2 k q) := by
  obtain ⟨-, -, -, -, e4, e5, -⟩ := blocks_at0 t
  show V c main_v23 (((cfg0.win 2).blk t).view.emb (ix2 k q)) = V c main_v23 (ix2 k q)
  refine congrArg (V c main_v23) (funext fun a => Fin.ext ?_)
  match a with
  | ⟨0, _⟩ => show win0_2.index t (0 : Fin 2) * 128 + 1 * k.val = k.val; omega
  | ⟨1, _⟩ => show win0_2.index t (1 : Fin 2) * 256 + 1 * q.val = q.val; omega

theorem wr_block0 (c : Dev nD) (t : Fin cfg0.N) (k : Fin 128) (q : Fin 256) :
    iblk0 V c 3 t (ix2 k q) = V c main_v24 (ix2 k q) := by
  obtain ⟨-, -, -, -, -, -, e6, e7, -⟩ := blocks_at0 t
  show V c main_v24 (((cfg0.win 3).blk t).view.emb (ix2 k q)) = V c main_v24 (ix2 k q)
  refine congrArg (V c main_v24) (funext fun a => Fin.ext ?_)
  match a with
  | ⟨0, _⟩ => show win0_3.index t (0 : Fin 2) * 128 + 1 * k.val = k.val; omega
  | ⟨1, _⟩ => show win0_3.index t (1 : Fin 2) * 256 + 1 * q.val = q.val; omega

theorem bias_block0 (c : Dev nD) (t : Fin cfg0.N) (q : Fin 256) :
    iblk0 V c 4 t (ix1 q) = V c main_arg6 (ix1 q) := by
  obtain ⟨-, -, -, -, -, -, -, -, e8, -⟩ := blocks_at0 t
  show V c main_arg6 (((cfg0.win 4).blk t).view.emb (ix1 q)) = V c main_arg6 (ix1 q)
  refine congrArg (V c main_arg6) (funext fun a => Fin.ext ?_)
  match a with
  | ⟨0, _⟩ => show win0_4.index t (0 : Fin 1) * 256 + 1 * q.val = q.val; omega

/-! ## What a point writes back -/

/-- The block point `t` writes back is block `t` of the layer's combine of the arrays as the region finds them. -/
theorem flushed0_eq (c : Dev nD) (t : Fin cfg0.N) :
    (dat0 V c).flushed 5 t = ((cfg0.win 5).blk t).view.read (Elt Ideal)
      (Cert.Sage.layer1 (V c main_v22) (V c main_arg1) (V c main_v23) (V c main_v24) (V c main_arg6)) := by
  show (cfg0.win 5).cut (grid0.coords t) ((dat0 V c).after 5 t) = _
  rw [after0_5]
  unfold out0_5
  rw [View.canon_unit_zero zero_off2_0]
  simp only [View.ld_unit_zero (S := S4000x128) zero_off2_0, View.ld_unit_zero (S := S128x256) zero_off2_0, View.ld_unit_zero (S := S256) zero_off1_0]
  obtain ⟨-, -, -, -, -, -, -, -, -, e9, e10⟩ := blocks_at0 t
  funext j
  obtain ⟨p, q, rfl⟩ : ∃ (p : Fin 4000) (q : Fin 256), j = ix2 p q := ⟨j 0, j 1, eq_ix2 j⟩
  have hrow : win0_5.index t (0 : Fin 2) * 4000 + p.val < 200000 := by have := p.isLt; omega
  have hemb : ((cfg0.win 5).blk t).view.emb (ix2 p q) = ix2 (⟨win0_5.index t (0 : Fin 2) * 4000 + p.val, hrow⟩ : Fin 200000) q := by
    funext a; apply Fin.ext
    match a with
    | ⟨0, _⟩ => show win0_5.index t (0 : Fin 2) * 4000 + 1 * p.val = win0_5.index t (0 : Fin 2) * 4000 + p.val; omega
    | ⟨1, _⟩ => show win0_5.index t (1 : Fin 2) * 256 + 1 * q.val = q.val; omega
  show Gen.k0_pay1 (F := Ideal) (iblk0 V c 0 t) (iblk0 V c 1 t) (iblk0 V c 2 t) (iblk0 V c 3 t) (iblk0 V c 4 t) (ix2 p q)
    = Cert.Sage.layer1 (V c main_v22) (V c main_arg1) (V c main_v23) (V c main_v24) (V c main_arg6) (((cfg0.win 5).blk t).view.emb (ix2 p q))
  rw [hemb]
  refine (Cert.KernelIdeal.Body0.payload_apply (iblk0 V c 0 t) (iblk0 V c 1 t) (iblk0 V c 2 t) (iblk0 V c 3 t) (iblk0 V c 4 t) p q).trans ?_
  show _ = max (Cert.Sage.pre1 (V c main_v22) (V c main_arg1) (V c main_v23) (V c main_v24) (V c main_arg6) (⟨win0_5.index t (0 : Fin 2) * 4000 + p.val, hrow⟩ : Fin 200000) q) 0
  unfold Cert.Sage.pre1
  simp only [mean_block0 V c t p _ ⟨win0_5.index t (0 : Fin 2) * 4000 + p.val, hrow⟩ rfl,
    self_block0 V c t p _ ⟨win0_5.index t (0 : Fin 2) * 4000 + p.val, hrow⟩ rfl,
    wl_block0 V c t, wr_block0 V c t, bias_block0 V c t]

/-! ## The blocks cover the array -/

/-- An index of the result array is in point `t`'s block iff each coordinate is in the block's range on its axis. -/
theorem mem_block0 (t : Fin cfg0.N) (i : S200000x256.Idx) :
    i ∈ ((cfg0.win 5).blk t).view.set ↔ ∀ a : Fin 2, win0_5.index t a * S4000x256.size a ≤ (i a).val ∧ (i a).val < win0_5.index t a * S4000x256.size a + S4000x256.size a := by
  show i ∈ ((View.whole main_v25).slice (win0_5.rect t)).set ↔ _
  rw [View.set_slice_whole, Rect.mem_set_unit]
  exact Iff.rfl

/-- Row `r` lies in the block of the point whose block row is `r / 4000`. -/
theorem covered0 (i : S200000x256.Idx) :
    ∃ t : Fin cfg0.N, (cfg0.win 5).flush t = true ∧ i ∈ ((cfg0.win 5).blk t).view.set := by
  have hi0 : (i 0).val < 200000 := (i 0).isLt
  have hi1 : (i 1).val < 256 := (i 1).isLt
  obtain ⟨t, ht⟩ := block_row_onto0 ⟨(i 0).val / 4000, by omega⟩
  have q0 : win0_5.index t (0 : Fin 2) = (i 0).val / 4000 := congrFun ht 0
  have q1 : win0_5.index t (1 : Fin 2) = 0 := congrFun ht 1
  refine ⟨t, flush0_5 t, ?_⟩
  rw [mem_block0]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 256 ≤ (i 1).val ∧ (i 1).val < win0_5.index t (1 : Fin 2) * 256 + 256; omega

/-- THE RESULT ARRAY after the region: the layer's combine of the arrays as the region finds them. -/
theorem final0 (c : Dev nD) :
    (dat0 V c).arrAt 5 cfg0.N = Cert.Sage.layer1 (V c main_v22) (V c main_arg1) (V c main_v23) (V c main_v24) (V c main_arg6) :=
  (dat0 V c).arrAt_eq_of_cover 5 _ (fun t _ => flushed0_eq V c t) (covered0)

end Cert.KernelIdeal.RegionValue

end
-- ==== Proof.KBody1.lean ====
/-
  What region 1's kernel body stores for a block of 4000 rows, read at one entry.

  The body multiplies the block of neighbour means and the block of the nodes' own features by the two weight
  arrays, adds the two products, adds the bias row to every row, and clips the result below at zero. Over the extended reals
  a change of float format is the identity and a matrix product into a zero accumulator is the plain sum over
  the contracted axis, so entry (p, q) of the stored block is

      max (Σ_k mean[p, k] · wl[k, q]  +  Σ_k x[p, k] · wr[k, q]  +  b[q]) 0 .
-/
import proofs.«104268_j69020124446814_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx
open Cert.KernelIdeal Cert.KernelIdeal.Facts₀ Cert.KernelIdeal.Facts

namespace Cert.KernelIdeal.Body1

/-! ## The product of a row block with a weight array, one entry at a time -/

theorem lhs_axis0 (i : S4000x256.Idx) (q : dot_S4000x128_S128x256_S4000x256_1_0_0_1_n_n.contr.Idx) :
    (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem lhs_axis1 (i : S4000x256.Idx) (q : dot_S4000x128_S128x256_S4000x256_1_0_0_1_n_n.contr.Idx) :
    (dot_S4000x128_S128x256_S4000x256_1_0_0_1_n_n.lhsIdx i q 1).val = (q ⟨0, by decide⟩).val :=
  dot_S4000x128_S128x256_S4000x256_1_0_0_1_n_n.lhsIdx_val_of_single rfl i q
theorem rhs_axis0 (i : S4000x256.Idx) (q : dot_S4000x128_S128x256_S4000x256_1_0_0_1_n_n.contr.Idx) :
    (dot_S4000x128_S128x256_S4000x256_1_0_0_1_n_n.rhsIdx i q 0).val = (q ⟨0, by decide⟩).val :=
  dot_S4000x128_S128x256_S4000x256_1_0_0_1_n_n.rhsIdx_val_of_single rfl i q
theorem rhs_axis1 (i : S4000x256.Idx) (q : dot_S4000x128_S128x256_S4000x256_1_0_0_1_n_n.contr.Idx) :
    (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- Entry (p, q) of a block times a weight array, accumulated into zero, is the sum over the 128 contracted
    features of the products. -/
theorem product_apply (a : FVec Ideal S4000x128 .bf16) (w : FVec Ideal S128x256 .bf16) (p : Fin 4000) (q : Fin 256) :
    matmul dot_S4000x128_S128x256_S4000x256_1_0_0_1_n_n none a w (constant S4000x256 .f32 0x00000000#32) (ix2 p q)
      = ∑ k : Fin 128, a (ix2 p k) * w (ix2 k q) := by
  simp only [matmul]
  rw [Ideal.matmul_constant_zero_apply, ← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 p q) ((contrEquiv1 dot_S4000x128_S128x256_S4000x256_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S4000x128_S128x256_S4000x256_1_0_0_1_n_n.rhsIdx (ix2 p q) ((contrEquiv1 dot_S4000x128_S128x256_S4000x256_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The bias row under every row of the block -/

/-- The bias vector, given a leading unit axis and repeated down the block's rows, read at (p, q) is its entry q. -/
theorem bias_apply (b : Vec Ideal S256 .f32) (p : Fin 4000) (q : Fin 256) :
    broadcastTo S4000x256 (shapeCast S1x256 b shapeCasts_S256_S1x256) broadcasts_S1x256_S4000x256 (ix2 p q) = b (ix1 q) := by
  rw [broadcastTo_apply (shapeCast S1x256 b shapeCasts_S256_S1x256) broadcasts_S1x256_S4000x256 (ix2 p q) (ix2 (0 : Fin 1) q) (fun a => by
    match a with
    | ⟨0, _⟩ => rfl
    | ⟨1, _⟩ => show q.val = if (256 : Nat) = 1 then 0 else q.val; rw [if_neg (by decide)])]
  exact (shapeCast_addUnit_apply (n := 1) ![256] b shapeCasts_S256_S1x256 (ix2 (0 : Fin 1) q)).trans
    (congrArg b (funext fun a => by match a with | ⟨0, _⟩ => rfl))

/-! ## The stored block at an entry -/

theorem payload_apply (x0 x1 : Vec Ideal S4000x128 .f32) (x2 x3 : Vec Ideal S128x256 .f32) (x4 : Vec Ideal S256 .f32)
    (p : Fin 4000) (q : Fin 256) :
    Gen.k1_pay1 (F := Ideal) x0 x1 x2 x3 x4 (ix2 p q)
      = max ((∑ k : Fin 128, x0 (ix2 p k) * x2 (ix2 k q)) + (∑ k : Fin 128, x1 (ix2 p k) * x3 (ix2 k q)) + x4 (ix1 q)) 0 := by
  unfold Gen.k1_pay1
  simp only [shapeCast_self]
  refine (congrArg₂ max (congrArg₂ (· + ·) (congrArg₂ (· + ·) (product_apply _ _ p q) (product_apply _ _ p q))
    (bias_apply x4 p q)) Ideal.ofBits_zero_f32).trans ?_
  rfl

end Cert.KernelIdeal.Body1

end
-- ==== Proof.KRegion1.lean ====
import proofs.«104268_j69020124446814_1_alg».proof.Proof.Gen.KernelIdeal.Frame
import proofs.«104268_j69020124446814_1_alg».proof.Proof.Spec
import proofs.«104268_j69020124446814_1_alg».proof.Proof.KBody1
import Idealize.ShloMosaic.Lib.Pipeline.Value
set_option maxRecDepth 16384

noncomputable section

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-!
  Region 1 as a whole-array function.

  The region runs its body at 50 grid points. Point `t` reads rows 4000·t … 4000·t + 3999 of the neighbour-mean array
  and of the nodes' own feature array, the two weight arrays and the bias whole, and writes back the same rows of the
  result. An entry of the written block is the body's value at that entry (`Body1.payload_apply`), whose operands are the
  arrays' entries in row 4000·t + p; so every block is the restriction of ONE function of the whole arrays, the layer's
  combine `Cert.Sage.layer1`, and since the 50 row blocks cover all 200000 rows the result array ends holding it.
-/

namespace Cert.KernelIdeal.RegionValue

variable (V : (c : Dev nD) → (b : Ref sig .tc) → Buf (Elt Ideal) ((c : Thread nD τ).loc b))

theorem zero_off2_1 : (![0, 0] : Fin 2 → Nat) = fun _ => 0 := funext fun a => by fin_cases a <;> rfl
theorem zero_off1_1 : (![0] : Fin 1 → Nat) = fun _ => 0 := funext fun a => by fin_cases a <;> rfl

/-- The printed index maps over the 50 grid points: the two row-blocked inputs sit at the output's block row, in block
    column 0; the weights and the bias are always block 0; the output's block row is below 50. -/
theorem blocks_at1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) ≤ 49 ∧ win1_5.index t (1 : Fin 2) = 0 :=
  (by decide +kernel : ∀ t : Fin grid1.N, _)

/-- Every one of the 50 row blocks is some point's. -/
theorem block_row_onto1 : ∀ (r : Fin 50), ∃ t : Fin cfg1.N, win1_5.index t = ![r.val, 0] :=
  (by decide +kernel : ∀ (r : Fin 50), ∃ t : Fin grid1.N, win1_5.index t = ![r.val, 0])

/-! ## The input blocks read where the output block's rows are -/

theorem mean_block1 (c : Dev nD) (t : Fin cfg1.N) (p : Fin 4000) (k : Fin 128) (r : Fin 200000)
    (hr : r.val = win1_5.index t (0 : Fin 2) * 4000 + p.val) :
    iblk1 V c 0 t (ix2 p k) = V c main_v48 (ix2 r k) := by
  obtain ⟨e0, e1, -⟩ := blocks_at1 t
  show V c main_v48 (((cfg1.win 0).blk t).view.emb (ix2 p k)) = V c main_v48 (ix2 r k)
  refine congrArg (V c main_v48) (funext fun a => Fin.ext ?_)
  match a with
  | ⟨0, _⟩ => show win1_0.index t (0 : Fin 2) * 4000 + 1 * p.val = r.val; omega
  | ⟨1, _⟩ => show win1_0.index t (1 : Fin 2) * 128 + 1 * k.val = k.val; omega

theorem self_block1 (c : Dev nD) (t : Fin cfg1.N) (p : Fin 4000) (k : Fin 128) (r : Fin 200000)
    (hr : r.val = win1_5.index t (0 : Fin 2) * 4000 + p.val) :
    iblk1 V c 1 t (ix2 p k) = V c main_arg0 (ix2 r k) := by
  obtain ⟨-, -, e2, e3, -⟩ := blocks_at1 t
  show V c main_arg0 (((cfg1.win 1).blk t).view.emb (ix2 p k)) = V c main_arg0 (ix2 r k)
  refine congrArg (V c main_arg0) (funext fun a => Fin.ext ?_)
  match a with
  | ⟨0, _⟩ => show win1_1.index t (0 : Fin 2) * 4000 + 1 * p.val = r.val; omega
  | ⟨1, _⟩ => show win1_1.index t (1 : Fin 2) * 128 + 1 * k.val = k.val; omega

theorem wl_block1 (c : Dev nD) (t : Fin cfg1.N) (k : Fin 128) (q : Fin 256) :
    iblk1 V c 2 t (ix2 k q) = V c main_v49 (ix2 k q) := by
  obtain ⟨-, -, -, -, e4, e5, -⟩ := blocks_at1 t
  show V c main_v49 (((cfg1.win 2).blk t).view.emb (ix2 k q)) = V c main_v49 (ix2 k q)
  refine congrArg (V c main_v49) (funext fun a => Fin.ext ?_)
  match a with
  | ⟨0, _⟩ => show win1_2.index t (0 : Fin 2) * 128 + 1 * k.val = k.val; omega
  | ⟨1, _⟩ => show win1_2.index t (1 : Fin 2) * 256 + 1 * q.val = q.val; omega

theorem wr_block1 (c : Dev nD) (t : Fin cfg1.N) (k : Fin 128) (q : Fin 256) :
    iblk1 V c 3 t (ix2 k q) = V c main_v50 (ix2 k q) := by
  obtain ⟨-, -, -, -, -, -, e6, e7, -⟩ := blocks_at1 t
  show V c main_v50 (((cfg1.win 3).blk t).view.emb (ix2 k q)) = V c main_v50 (ix2 k q)
  refine congrArg (V c main_v50) (funext fun a => Fin.ext ?_)
  match a with
  | ⟨0, _⟩ => show win1_3.index t (0 : Fin 2) * 128 + 1 * k.val = k.val; omega
  | ⟨1, _⟩ => show win1_3.index t (1 : Fin 2) * 256 + 1 * q.val = q.val; omega

theorem bias_block1 (c : Dev nD) (t : Fin cfg1.N) (q : Fin 256) :
    iblk1 V c 4 t (ix1 q) = V c main_arg9 (ix1 q) := by
  obtain ⟨-, -, -, -, -, -, -, -, e8, -⟩ := blocks_at1 t
  show V c main_arg9 (((cfg1.win 4).blk t).view.emb (ix1 q)) = V c main_arg9 (ix1 q)
  refine congrArg (V c main_arg9) (funext fun a => Fin.ext ?_)
  match a with
  | ⟨0, _⟩ => show win1_4.index t (0 : Fin 1) * 256 + 1 * q.val = q.val; omega

/-! ## What a point writes back -/

/-- The block point `t` writes back is block `t` of the layer's combine of the arrays as the region finds them. -/
theorem flushed1_eq (c : Dev nD) (t : Fin cfg1.N) :
    (dat1 V c).flushed 5 t = ((cfg1.win 5).blk t).view.read (Elt Ideal)
      (Cert.Sage.layer1 (V c main_v48) (V c main_arg0) (V c main_v49) (V c main_v50) (V c main_arg9)) := by
  show (cfg1.win 5).cut (grid1.coords t) ((dat1 V c).after 5 t) = _
  rw [after1_5]
  unfold out1_5
  rw [View.canon_unit_zero zero_off2_1]
  simp only [View.ld_unit_zero (S := S4000x128) zero_off2_1, View.ld_unit_zero (S := S128x256) zero_off2_1, View.ld_unit_zero (S := S256) zero_off1_1]
  obtain ⟨-, -, -, -, -, -, -, -, -, e9, e10⟩ := blocks_at1 t
  funext j
  obtain ⟨p, q, rfl⟩ : ∃ (p : Fin 4000) (q : Fin 256), j = ix2 p q := ⟨j 0, j 1, eq_ix2 j⟩
  have hrow : win1_5.index t (0 : Fin 2) * 4000 + p.val < 200000 := by have := p.isLt; omega
  have hemb : ((cfg1.win 5).blk t).view.emb (ix2 p q) = ix2 (⟨win1_5.index t (0 : Fin 2) * 4000 + p.val, hrow⟩ : Fin 200000) q := by
    funext a; apply Fin.ext
    match a with
    | ⟨0, _⟩ => show win1_5.index t (0 : Fin 2) * 4000 + 1 * p.val = win1_5.index t (0 : Fin 2) * 4000 + p.val; omega
    | ⟨1, _⟩ => show win1_5.index t (1 : Fin 2) * 256 + 1 * q.val = q.val; omega
  show Gen.k1_pay1 (F := Ideal) (iblk1 V c 0 t) (iblk1 V c 1 t) (iblk1 V c 2 t) (iblk1 V c 3 t) (iblk1 V c 4 t) (ix2 p q)
    = Cert.Sage.layer1 (V c main_v48) (V c main_arg0) (V c main_v49) (V c main_v50) (V c main_arg9) (((cfg1.win 5).blk t).view.emb (ix2 p q))
  rw [hemb]
  refine (Cert.KernelIdeal.Body1.payload_apply (iblk1 V c 0 t) (iblk1 V c 1 t) (iblk1 V c 2 t) (iblk1 V c 3 t) (iblk1 V c 4 t) p q).trans ?_
  show _ = max (Cert.Sage.pre1 (V c main_v48) (V c main_arg0) (V c main_v49) (V c main_v50) (V c main_arg9) (⟨win1_5.index t (0 : Fin 2) * 4000 + p.val, hrow⟩ : Fin 200000) q) 0
  unfold Cert.Sage.pre1
  simp only [mean_block1 V c t p _ ⟨win1_5.index t (0 : Fin 2) * 4000 + p.val, hrow⟩ rfl,
    self_block1 V c t p _ ⟨win1_5.index t (0 : Fin 2) * 4000 + p.val, hrow⟩ rfl,
    wl_block1 V c t, wr_block1 V c t, bias_block1 V c t]

/-! ## The blocks cover the array -/

/-- An index of the result array is in point `t`'s block iff each coordinate is in the block's range on its axis. -/
theorem mem_block1 (t : Fin cfg1.N) (i : S200000x256.Idx) :
    i ∈ ((cfg1.win 5).blk t).view.set ↔ ∀ a : Fin 2, win1_5.index t a * S4000x256.size a ≤ (i a).val ∧ (i a).val < win1_5.index t a * S4000x256.size a + S4000x256.size a := by
  show i ∈ ((View.whole main_v51).slice (win1_5.rect t)).set ↔ _
  rw [View.set_slice_whole, Rect.mem_set_unit]
  exact Iff.rfl

/-- Row `r` lies in the block of the point whose block row is `r / 4000`. -/
theorem covered1 (i : S200000x256.Idx) :
    ∃ t : Fin cfg1.N, (cfg1.win 5).flush t = true ∧ i ∈ ((cfg1.win 5).blk t).view.set := by
  have hi0 : (i 0).val < 200000 := (i 0).isLt
  have hi1 : (i 1).val < 256 := (i 1).isLt
  obtain ⟨t, ht⟩ := block_row_onto1 ⟨(i 0).val / 4000, by omega⟩
  have q0 : win1_5.index t (0 : Fin 2) = (i 0).val / 4000 := congrFun ht 0
  have q1 : win1_5.index t (1 : Fin 2) = 0 := congrFun ht 1
  refine ⟨t, flush1_5 t, ?_⟩
  rw [mem_block1]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 256 ≤ (i 1).val ∧ (i 1).val < win1_5.index t (1 : Fin 2) * 256 + 256; omega

/-- THE RESULT ARRAY after the region: the layer's combine of the arrays as the region finds them. -/
theorem final1 (c : Dev nD) :
    (dat1 V c).arrAt 5 cfg1.N = Cert.Sage.layer1 (V c main_v48) (V c main_arg0) (V c main_v49) (V c main_v50) (V c main_arg9) :=
  (dat1 V c).arrAt_eq_of_cover 5 _ (fun t _ => flushed1_eq V c t) (covered1)

end Cert.KernelIdeal.RegionValue

end
-- ==== Proof.KBody2.lean ====
/-
  What region 2's kernel body stores for a block of 4000 rows, read at one entry.

  The body multiplies the block of neighbour means and the block of the nodes' own features by the two weight
  arrays, adds the two products, adds the bias row to every row. Over the extended reals
  a change of float format is the identity and a matrix product into a zero accumulator is the plain sum over
  the contracted axis, so entry (p, q) of the stored block is

      Σ_k mean[p, k] · wl[k, q]  +  Σ_k x[p, k] · wr[k, q]  +  b[q] .
-/
import proofs.«104268_j69020124446814_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx
open Cert.KernelIdeal Cert.KernelIdeal.Facts₀ Cert.KernelIdeal.Facts

namespace Cert.KernelIdeal.Body2

/-! ## The product of a row block with a weight array, one entry at a time -/

theorem lhs_axis0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs_axis1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem rhs_axis0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem rhs_axis1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- Entry (p, q) of a block times a weight array, accumulated into zero, is the sum over the 256 contracted
    features of the products. -/
theorem product_apply (a : FVec Ideal S4000x256 .bf16) (w : FVec Ideal S256x128 .bf16) (p : Fin 4000) (q : Fin 128) :
    matmul dot_S4000x256_S256x128_S4000x128_1_0_0_1_n_n none a w (constant S4000x128 .f32 0x00000000#32) (ix2 p q)
      = ∑ k : Fin 256, a (ix2 p k) * w (ix2 k q) := by
  simp only [matmul]
  rw [Ideal.matmul_constant_zero_apply, ← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p q) ((contrEquiv1 dot_S4000x256_S256x128_S4000x128_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S4000x256_S256x128_S4000x128_1_0_0_1_n_n.rhsIdx (ix2 p q) ((contrEquiv1 dot_S4000x256_S256x128_S4000x128_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## The bias row under every row of the block -/

/-- The bias vector, given a leading unit axis and repeated down the block's rows, read at (p, q) is its entry q. -/
theorem bias_apply (b : Vec Ideal S128 .f32) (p : Fin 4000) (q : Fin 128) :
    broadcastTo S4000x128 (shapeCast S1x128 b shapeCasts_S128_S1x128) broadcasts_S1x128_S4000x128 (ix2 p q) = b (ix1 q) := by
  rw [broadcastTo_apply (shapeCast S1x128 b shapeCasts_S128_S1x128) broadcasts_S1x128_S4000x128 (ix2 p q) (ix2 (0 : Fin 1) q) (fun a => by
    match a with
    | ⟨0, _⟩ => rfl
    | ⟨1, _⟩ => show q.val = if (128 : Nat) = 1 then 0 else q.val; rw [if_neg (by decide)])]
  exact (shapeCast_addUnit_apply (n := 1) ![128] b shapeCasts_S128_S1x128 (ix2 (0 : Fin 1) q)).trans
    (congrArg b (funext fun a => by match a with | ⟨0, _⟩ => rfl))

/-! ## The stored block at an entry -/

theorem payload_apply (x0 x1 : Vec Ideal S4000x256 .f32) (x2 x3 : Vec Ideal S256x128 .f32) (x4 : Vec Ideal S128 .f32)
    (p : Fin 4000) (q : Fin 128) :
    Gen.k2_pay1 (F := Ideal) x0 x1 x2 x3 x4 (ix2 p q)
      = (∑ k : Fin 256, x0 (ix2 p k) * x2 (ix2 k q)) + (∑ k : Fin 256, x1 (ix2 p k) * x3 (ix2 k q)) + x4 (ix1 q) := by
  unfold Gen.k2_pay1
  simp only [shapeCast_self]
  exact congrArg₂ (· + ·) (congrArg₂ (· + ·) (product_apply _ _ p q) (product_apply _ _ p q)) (bias_apply x4 p q)

end Cert.KernelIdeal.Body2

end
-- ==== Proof.KRegion2.lean ====
import proofs.«104268_j69020124446814_1_alg».proof.Proof.Gen.KernelIdeal.Frame
import proofs.«104268_j69020124446814_1_alg».proof.Proof.Spec
import proofs.«104268_j69020124446814_1_alg».proof.Proof.KBody2
import Idealize.ShloMosaic.Lib.Pipeline.Value
set_option maxRecDepth 16384

noncomputable section

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-!
  Region 2 as a whole-array function.

  The region runs its body at 50 grid points. Point `t` reads rows 4000·t … 4000·t + 3999 of the neighbour-mean array
  and of the nodes' own feature array, the two weight arrays and the bias whole, and writes back the same rows of the
  result. An entry of the written block is the body's value at that entry (`Body2.payload_apply`), whose operands are the
  arrays' entries in row 4000·t + p; so every block is the restriction of ONE function of the whole arrays, the layer's
  combine `Cert.Sage.layer2`, and since the 50 row blocks cover all 200000 rows the result array ends holding it.
-/

namespace Cert.KernelIdeal.RegionValue

variable (V : (c : Dev nD) → (b : Ref sig .tc) → Buf (Elt Ideal) ((c : Thread nD τ).loc b))

theorem zero_off2_2 : (![0, 0] : Fin 2 → Nat) = fun _ => 0 := funext fun a => by fin_cases a <;> rfl
theorem zero_off1_2 : (![0] : Fin 1 → Nat) = fun _ => 0 := funext fun a => by fin_cases a <;> rfl

/-- The printed index maps over the 50 grid points: the two row-blocked inputs sit at the output's block row, in block
    column 0; the weights and the bias are always block 0; the output's block row is below 50. -/
theorem blocks_at2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) ≤ 49 ∧ win2_5.index t (1 : Fin 2) = 0 :=
  (by decide +kernel : ∀ t : Fin grid2.N, _)

/-- Every one of the 50 row blocks is some point's. -/
theorem block_row_onto2 : ∀ (r : Fin 50), ∃ t : Fin cfg2.N, win2_5.index t = ![r.val, 0] :=
  (by decide +kernel : ∀ (r : Fin 50), ∃ t : Fin grid2.N, win2_5.index t = ![r.val, 0])

/-! ## The input blocks read where the output block's rows are -/

theorem mean_block2 (c : Dev nD) (t : Fin cfg2.N) (p : Fin 4000) (k : Fin 256) (r : Fin 200000)
    (hr : r.val = win2_5.index t (0 : Fin 2) * 4000 + p.val) :
    iblk2 V c 0 t (ix2 p k) = V c main_v74 (ix2 r k) := by
  obtain ⟨e0, e1, -⟩ := blocks_at2 t
  show V c main_v74 (((cfg2.win 0).blk t).view.emb (ix2 p k)) = V c main_v74 (ix2 r k)
  refine congrArg (V c main_v74) (funext fun a => Fin.ext ?_)
  match a with
  | ⟨0, _⟩ => show win2_0.index t (0 : Fin 2) * 4000 + 1 * p.val = r.val; omega
  | ⟨1, _⟩ => show win2_0.index t (1 : Fin 2) * 256 + 1 * k.val = k.val; omega

theorem self_block2 (c : Dev nD) (t : Fin cfg2.N) (p : Fin 4000) (k : Fin 256) (r : Fin 200000)
    (hr : r.val = win2_5.index t (0 : Fin 2) * 4000 + p.val) :
    iblk2 V c 1 t (ix2 p k) = V c main_v25 (ix2 r k) := by
  obtain ⟨-, -, e2, e3, -⟩ := blocks_at2 t
  show V c main_v25 (((cfg2.win 1).blk t).view.emb (ix2 p k)) = V c main_v25 (ix2 r k)
  refine congrArg (V c main_v25) (funext fun a => Fin.ext ?_)
  match a with
  | ⟨0, _⟩ => show win2_1.index t (0 : Fin 2) * 4000 + 1 * p.val = r.val; omega
  | ⟨1, _⟩ => show win2_1.index t (1 : Fin 2) * 256 + 1 * k.val = k.val; omega

theorem wl_block2 (c : Dev nD) (t : Fin cfg2.N) (k : Fin 256) (q : Fin 128) :
    iblk2 V c 2 t (ix2 k q) = V c main_v75 (ix2 k q) := by
  obtain ⟨-, -, -, -, e4, e5, -⟩ := blocks_at2 t
  show V c main_v75 (((cfg2.win 2).blk t).view.emb (ix2 k q)) = V c main_v75 (ix2 k q)
  refine congrArg (V c main_v75) (funext fun a => Fin.ext ?_)
  match a with
  | ⟨0, _⟩ => show win2_2.index t (0 : Fin 2) * 256 + 1 * k.val = k.val; omega
  | ⟨1, _⟩ => show win2_2.index t (1 : Fin 2) * 128 + 1 * q.val = q.val; omega

theorem wr_block2 (c : Dev nD) (t : Fin cfg2.N) (k : Fin 256) (q : Fin 128) :
    iblk2 V c 3 t (ix2 k q) = V c main_v76 (ix2 k q) := by
  obtain ⟨-, -, -, -, -, -, e6, e7, -⟩ := blocks_at2 t
  show V c main_v76 (((cfg2.win 3).blk t).view.emb (ix2 k q)) = V c main_v76 (ix2 k q)
  refine congrArg (V c main_v76) (funext fun a => Fin.ext ?_)
  match a with
  | ⟨0, _⟩ => show win2_3.index t (0 : Fin 2) * 256 + 1 * k.val = k.val; omega
  | ⟨1, _⟩ => show win2_3.index t (1 : Fin 2) * 128 + 1 * q.val = q.val; omega

theorem bias_block2 (c : Dev nD) (t : Fin cfg2.N) (q : Fin 128) :
    iblk2 V c 4 t (ix1 q) = V c main_arg12 (ix1 q) := by
  obtain ⟨-, -, -, -, -, -, -, -, e8, -⟩ := blocks_at2 t
  show V c main_arg12 (((cfg2.win 4).blk t).view.emb (ix1 q)) = V c main_arg12 (ix1 q)
  refine congrArg (V c main_arg12) (funext fun a => Fin.ext ?_)
  match a with
  | ⟨0, _⟩ => show win2_4.index t (0 : Fin 1) * 128 + 1 * q.val = q.val; omega

/-! ## What a point writes back -/

/-- The block point `t` writes back is block `t` of the layer's combine of the arrays as the region finds them. -/
theorem flushed2_eq (c : Dev nD) (t : Fin cfg2.N) :
    (dat2 V c).flushed 5 t = ((cfg2.win 5).blk t).view.read (Elt Ideal)
      (Cert.Sage.layer2 (V c main_v74) (V c main_v25) (V c main_v75) (V c main_v76) (V c main_arg12)) := by
  show (cfg2.win 5).cut (grid2.coords t) ((dat2 V c).after 5 t) = _
  rw [after2_5]
  unfold out2_5
  rw [View.canon_unit_zero zero_off2_2]
  simp only [View.ld_unit_zero (S := S4000x256) zero_off2_2, View.ld_unit_zero (S := S256x128) zero_off2_2, View.ld_unit_zero (S := S128) zero_off1_2]
  obtain ⟨-, -, -, -, -, -, -, -, -, e9, e10⟩ := blocks_at2 t
  funext j
  obtain ⟨p, q, rfl⟩ : ∃ (p : Fin 4000) (q : Fin 128), j = ix2 p q := ⟨j 0, j 1, eq_ix2 j⟩
  have hrow : win2_5.index t (0 : Fin 2) * 4000 + p.val < 200000 := by have := p.isLt; omega
  have hemb : ((cfg2.win 5).blk t).view.emb (ix2 p q) = ix2 (⟨win2_5.index t (0 : Fin 2) * 4000 + p.val, hrow⟩ : Fin 200000) q := by
    funext a; apply Fin.ext
    match a with
    | ⟨0, _⟩ => show win2_5.index t (0 : Fin 2) * 4000 + 1 * p.val = win2_5.index t (0 : Fin 2) * 4000 + p.val; omega
    | ⟨1, _⟩ => show win2_5.index t (1 : Fin 2) * 128 + 1 * q.val = q.val; omega
  show Gen.k2_pay1 (F := Ideal) (iblk2 V c 0 t) (iblk2 V c 1 t) (iblk2 V c 2 t) (iblk2 V c 3 t) (iblk2 V c 4 t) (ix2 p q)
    = Cert.Sage.layer2 (V c main_v74) (V c main_v25) (V c main_v75) (V c main_v76) (V c main_arg12) (((cfg2.win 5).blk t).view.emb (ix2 p q))
  rw [hemb]
  refine (Cert.KernelIdeal.Body2.payload_apply (iblk2 V c 0 t) (iblk2 V c 1 t) (iblk2 V c 2 t) (iblk2 V c 3 t) (iblk2 V c 4 t) p q).trans ?_
  show _ = Cert.Sage.pre2 (V c main_v74) (V c main_v25) (V c main_v75) (V c main_v76) (V c main_arg12) (⟨win2_5.index t (0 : Fin 2) * 4000 + p.val, hrow⟩ : Fin 200000) q
  unfold Cert.Sage.pre2
  simp only [mean_block2 V c t p _ ⟨win2_5.index t (0 : Fin 2) * 4000 + p.val, hrow⟩ rfl,
    self_block2 V c t p _ ⟨win2_5.index t (0 : Fin 2) * 4000 + p.val, hrow⟩ rfl,
    wl_block2 V c t, wr_block2 V c t, bias_block2 V c t]

/-! ## The blocks cover the array -/

/-- An index of the result array is in point `t`'s block iff each coordinate is in the block's range on its axis. -/
theorem mem_block2 (t : Fin cfg2.N) (i : S200000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v77).slice (win2_5.rect t)).set ↔ _
  rw [View.set_slice_whole, Rect.mem_set_unit]
  exact Iff.rfl

/-- Row `r` lies in the block of the point whose block row is `r / 4000`. -/
theorem covered2 (i : S200000x128.Idx) :
    ∃ t : Fin cfg2.N, (cfg2.win 5).flush t = true ∧ i ∈ ((cfg2.win 5).blk t).view.set := by
  have hi0 : (i 0).val < 200000 := (i 0).isLt
  have hi1 : (i 1).val < 128 := (i 1).isLt
  obtain ⟨t, ht⟩ := block_row_onto2 ⟨(i 0).val / 4000, by omega⟩
  have q0 : win2_5.index t (0 : Fin 2) = (i 0).val / 4000 := congrFun ht 0
  have q1 : win2_5.index t (1 : Fin 2) = 0 := congrFun ht 1
  refine ⟨t, flush2_5 t, ?_⟩
  rw [mem_block2]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 128 ≤ (i 1).val ∧ (i 1).val < win2_5.index t (1 : Fin 2) * 128 + 128; omega

/-- THE RESULT ARRAY after the region: the layer's combine of the arrays as the region finds them. -/
theorem final2 (c : Dev nD) :
    (dat2 V c).arrAt 5 cfg2.N = Cert.Sage.layer2 (V c main_v74) (V c main_v25) (V c main_v75) (V c main_v76) (V c main_arg12) :=
  (dat2 V c).arrAt_eq_of_cover 5 _ (fun t _ => flushed2_eq V c t) (covered2)

end Cert.KernelIdeal.RegionValue

end
-- ==== Proof.KBody3.lean ====
/-
  What region 3's kernel body stores for a block of 4000 rows, read at one entry.

  The body multiplies the block of neighbour means and the block of the nodes' own features by the two weight
  arrays, adds the two products, adds the bias row to every row. Over the extended reals
  a change of float format is the identity and a matrix product into a zero accumulator is the plain sum over
  the contracted axis, so entry (p, q) of the stored block is

      Σ_k mean[p, k] · wl[k, q]  +  Σ_k x[p, k] · wr[k, q]  +  b[q] .
-/
import proofs.«104268_j69020124446814_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx
open Cert.KernelIdeal Cert.KernelIdeal.Facts₀ Cert.KernelIdeal.Facts

namespace Cert.KernelIdeal.Body3

/-! ## The product of a row block with a weight array, one entry at a time -/

theorem lhs_axis0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs_axis1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem rhs_axis0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem rhs_axis1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- Entry (p, q) of a block times a weight array, accumulated into zero, is the sum over the 256 contracted
    features of the products. -/
theorem product_apply (a : FVec Ideal S4000x256 .bf16) (w : FVec Ideal S256x128 .bf16) (p : Fin 4000) (q : Fin 128) :
    matmul dot_S4000x256_S256x128_S4000x128_1_0_0_1_n_n none a w (constant S4000x128 .f32 0x00000000#32) (ix2 p q)
      = ∑ k : Fin 256, a (ix2 p k) * w (ix2 k q) := by
  simp only [matmul]
  rw [Ideal.matmul_constant_zero_apply, ← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p q) ((contrEquiv1 dot_S4000x256_S256x128_S4000x128_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S4000x256_S256x128_S4000x128_1_0_0_1_n_n.rhsIdx (ix2 p q) ((contrEquiv1 dot_S4000x256_S256x128_S4000x128_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## The bias row under every row of the block -/

/-- The bias vector, given a leading unit axis and repeated down the block's rows, read at (p, q) is its entry q. -/
theorem bias_apply (b : Vec Ideal S128 .f32) (p : Fin 4000) (q : Fin 128) :
    broadcastTo S4000x128 (shapeCast S1x128 b shapeCasts_S128_S1x128) broadcasts_S1x128_S4000x128 (ix2 p q) = b (ix1 q) := by
  rw [broadcastTo_apply (shapeCast S1x128 b shapeCasts_S128_S1x128) broadcasts_S1x128_S4000x128 (ix2 p q) (ix2 (0 : Fin 1) q) (fun a => by
    match a with
    | ⟨0, _⟩ => rfl
    | ⟨1, _⟩ => show q.val = if (128 : Nat) = 1 then 0 else q.val; rw [if_neg (by decide)])]
  exact (shapeCast_addUnit_apply (n := 1) ![128] b shapeCasts_S128_S1x128 (ix2 (0 : Fin 1) q)).trans
    (congrArg b (funext fun a => by match a with | ⟨0, _⟩ => rfl))

/-! ## The stored block at an entry -/

theorem payload_apply (x0 x1 : Vec Ideal S4000x256 .f32) (x2 x3 : Vec Ideal S256x128 .f32) (x4 : Vec Ideal S128 .f32)
    (p : Fin 4000) (q : Fin 128) :
    Gen.k3_pay1 (F := Ideal) x0 x1 x2 x3 x4 (ix2 p q)
      = (∑ k : Fin 256, x0 (ix2 p k) * x2 (ix2 k q)) + (∑ k : Fin 256, x1 (ix2 p k) * x3 (ix2 k q)) + x4 (ix1 q) := by
  unfold Gen.k3_pay1
  simp only [shapeCast_self]
  exact congrArg₂ (· + ·) (congrArg₂ (· + ·) (product_apply _ _ p q) (product_apply _ _ p q)) (bias_apply x4 p q)

end Cert.KernelIdeal.Body3

end
-- ==== Proof.KRegion3.lean ====
import proofs.«104268_j69020124446814_1_alg».proof.Proof.Gen.KernelIdeal.Frame
import proofs.«104268_j69020124446814_1_alg».proof.Proof.Spec
import proofs.«104268_j69020124446814_1_alg».proof.Proof.KBody3
import Idealize.ShloMosaic.Lib.Pipeline.Value
set_option maxRecDepth 16384

noncomputable section

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-!
  Region 3 as a whole-array function.

  The region runs its body at 50 grid points. Point `t` reads rows 4000·t … 4000·t + 3999 of the neighbour-mean array
  and of the nodes' own feature array, the two weight arrays and the bias whole, and writes back the same rows of the
  result. An entry of the written block is the body's value at that entry (`Body3.payload_apply`), whose operands are the
  arrays' entries in row 4000·t + p; so every block is the restriction of ONE function of the whole arrays, the layer's
  combine `Cert.Sage.layer2`, and since the 50 row blocks cover all 200000 rows the result array ends holding it.
-/

namespace Cert.KernelIdeal.RegionValue

variable (V : (c : Dev nD) → (b : Ref sig .tc) → Buf (Elt Ideal) ((c : Thread nD τ).loc b))

theorem zero_off2_3 : (![0, 0] : Fin 2 → Nat) = fun _ => 0 := funext fun a => by fin_cases a <;> rfl
theorem zero_off1_3 : (![0] : Fin 1 → Nat) = fun _ => 0 := funext fun a => by fin_cases a <;> rfl

/-- The printed index maps over the 50 grid points: the two row-blocked inputs sit at the output's block row, in block
    column 0; the weights and the bias are always block 0; the output's block row is below 50. -/
theorem blocks_at3 : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 2) ≤ 49 ∧ win3_5.index t (1 : Fin 2) = 0 :=
  (by decide +kernel : ∀ t : Fin grid3.N, _)

/-- Every one of the 50 row blocks is some point's. -/
theorem block_row_onto3 : ∀ (r : Fin 50), ∃ t : Fin cfg3.N, win3_5.index t = ![r.val, 0] :=
  (by decide +kernel : ∀ (r : Fin 50), ∃ t : Fin grid3.N, win3_5.index t = ![r.val, 0])

/-! ## The input blocks read where the output block's rows are -/

theorem mean_block3 (c : Dev nD) (t : Fin cfg3.N) (p : Fin 4000) (k : Fin 256) (r : Fin 200000)
    (hr : r.val = win3_5.index t (0 : Fin 2) * 4000 + p.val) :
    iblk3 V c 0 t (ix2 p k) = V c main_v100 (ix2 r k) := by
  obtain ⟨e0, e1, -⟩ := blocks_at3 t
  show V c main_v100 (((cfg3.win 0).blk t).view.emb (ix2 p k)) = V c main_v100 (ix2 r k)
  refine congrArg (V c main_v100) (funext fun a => Fin.ext ?_)
  match a with
  | ⟨0, _⟩ => show win3_0.index t (0 : Fin 2) * 4000 + 1 * p.val = r.val; omega
  | ⟨1, _⟩ => show win3_0.index t (1 : Fin 2) * 256 + 1 * k.val = k.val; omega

theorem self_block3 (c : Dev nD) (t : Fin cfg3.N) (p : Fin 4000) (k : Fin 256) (r : Fin 200000)
    (hr : r.val = win3_5.index t (0 : Fin 2) * 4000 + p.val) :
    iblk3 V c 1 t (ix2 p k) = V c main_v51 (ix2 r k) := by
  obtain ⟨-, -, e2, e3, -⟩ := blocks_at3 t
  show V c main_v51 (((cfg3.win 1).blk t).view.emb (ix2 p k)) = V c main_v51 (ix2 r k)
  refine congrArg (V c main_v51) (funext fun a => Fin.ext ?_)
  match a with
  | ⟨0, _⟩ => show win3_1.index t (0 : Fin 2) * 4000 + 1 * p.val = r.val; omega
  | ⟨1, _⟩ => show win3_1.index t (1 : Fin 2) * 256 + 1 * k.val = k.val; omega

theorem wl_block3 (c : Dev nD) (t : Fin cfg3.N) (k : Fin 256) (q : Fin 128) :
    iblk3 V c 2 t (ix2 k q) = V c main_v101 (ix2 k q) := by
  obtain ⟨-, -, -, -, e4, e5, -⟩ := blocks_at3 t
  show V c main_v101 (((cfg3.win 2).blk t).view.emb (ix2 k q)) = V c main_v101 (ix2 k q)
  refine congrArg (V c main_v101) (funext fun a => Fin.ext ?_)
  match a with
  | ⟨0, _⟩ => show win3_2.index t (0 : Fin 2) * 256 + 1 * k.val = k.val; omega
  | ⟨1, _⟩ => show win3_2.index t (1 : Fin 2) * 128 + 1 * q.val = q.val; omega

theorem wr_block3 (c : Dev nD) (t : Fin cfg3.N) (k : Fin 256) (q : Fin 128) :
    iblk3 V c 3 t (ix2 k q) = V c main_v102 (ix2 k q) := by
  obtain ⟨-, -, -, -, -, -, e6, e7, -⟩ := blocks_at3 t
  show V c main_v102 (((cfg3.win 3).blk t).view.emb (ix2 k q)) = V c main_v102 (ix2 k q)
  refine congrArg (V c main_v102) (funext fun a => Fin.ext ?_)
  match a with
  | ⟨0, _⟩ => show win3_3.index t (0 : Fin 2) * 256 + 1 * k.val = k.val; omega
  | ⟨1, _⟩ => show win3_3.index t (1 : Fin 2) * 128 + 1 * q.val = q.val; omega

theorem bias_block3 (c : Dev nD) (t : Fin cfg3.N) (q : Fin 128) :
    iblk3 V c 4 t (ix1 q) = V c main_arg15 (ix1 q) := by
  obtain ⟨-, -, -, -, -, -, -, -, e8, -⟩ := blocks_at3 t
  show V c main_arg15 (((cfg3.win 4).blk t).view.emb (ix1 q)) = V c main_arg15 (ix1 q)
  refine congrArg (V c main_arg15) (funext fun a => Fin.ext ?_)
  match a with
  | ⟨0, _⟩ => show win3_4.index t (0 : Fin 1) * 128 + 1 * q.val = q.val; omega

/-! ## What a point writes back -/

/-- The block point `t` writes back is block `t` of the layer's combine of the arrays as the region finds them. -/
theorem flushed3_eq (c : Dev nD) (t : Fin cfg3.N) :
    (dat3 V c).flushed 5 t = ((cfg3.win 5).blk t).view.read (Elt Ideal)
      (Cert.Sage.layer2 (V c main_v100) (V c main_v51) (V c main_v101) (V c main_v102) (V c main_arg15)) := by
  show (cfg3.win 5).cut (grid3.coords t) ((dat3 V c).after 5 t) = _
  rw [after3_5]
  unfold out3_5
  rw [View.canon_unit_zero zero_off2_3]
  simp only [View.ld_unit_zero (S := S4000x256) zero_off2_3, View.ld_unit_zero (S := S256x128) zero_off2_3, View.ld_unit_zero (S := S128) zero_off1_3]
  obtain ⟨-, -, -, -, -, -, -, -, -, e9, e10⟩ := blocks_at3 t
  funext j
  obtain ⟨p, q, rfl⟩ : ∃ (p : Fin 4000) (q : Fin 128), j = ix2 p q := ⟨j 0, j 1, eq_ix2 j⟩
  have hrow : win3_5.index t (0 : Fin 2) * 4000 + p.val < 200000 := by have := p.isLt; omega
  have hemb : ((cfg3.win 5).blk t).view.emb (ix2 p q) = ix2 (⟨win3_5.index t (0 : Fin 2) * 4000 + p.val, hrow⟩ : Fin 200000) q := by
    funext a; apply Fin.ext
    match a with
    | ⟨0, _⟩ => show win3_5.index t (0 : Fin 2) * 4000 + 1 * p.val = win3_5.index t (0 : Fin 2) * 4000 + p.val; omega
    | ⟨1, _⟩ => show win3_5.index t (1 : Fin 2) * 128 + 1 * q.val = q.val; omega
  show Gen.k3_pay1 (F := Ideal) (iblk3 V c 0 t) (iblk3 V c 1 t) (iblk3 V c 2 t) (iblk3 V c 3 t) (iblk3 V c 4 t) (ix2 p q)
    = Cert.Sage.layer2 (V c main_v100) (V c main_v51) (V c main_v101) (V c main_v102) (V c main_arg15) (((cfg3.win 5).blk t).view.emb (ix2 p q))
  rw [hemb]
  refine (Cert.KernelIdeal.Body3.payload_apply (iblk3 V c 0 t) (iblk3 V c 1 t) (iblk3 V c 2 t) (iblk3 V c 3 t) (iblk3 V c 4 t) p q).trans ?_
  show _ = Cert.Sage.pre2 (V c main_v100) (V c main_v51) (V c main_v101) (V c main_v102) (V c main_arg15) (⟨win3_5.index t (0 : Fin 2) * 4000 + p.val, hrow⟩ : Fin 200000) q
  unfold Cert.Sage.pre2
  simp only [mean_block3 V c t p _ ⟨win3_5.index t (0 : Fin 2) * 4000 + p.val, hrow⟩ rfl,
    self_block3 V c t p _ ⟨win3_5.index t (0 : Fin 2) * 4000 + p.val, hrow⟩ rfl,
    wl_block3 V c t, wr_block3 V c t, bias_block3 V c t]

/-! ## The blocks cover the array -/

/-- An index of the result array is in point `t`'s block iff each coordinate is in the block's range on its axis. -/
theorem mem_block3 (t : Fin cfg3.N) (i : S200000x128.Idx) :
    i ∈ ((cfg3.win 5).blk t).view.set ↔ ∀ a : Fin 2, win3_5.index t a * S4000x128.size a ≤ (i a).val ∧ (i a).val < win3_5.index t a * S4000x128.size a + S4000x128.size a := by
  show i ∈ ((View.whole main_v103).slice (win3_5.rect t)).set ↔ _
  rw [View.set_slice_whole, Rect.mem_set_unit]
  exact Iff.rfl

/-- Row `r` lies in the block of the point whose block row is `r / 4000`. -/
theorem covered3 (i : S200000x128.Idx) :
    ∃ t : Fin cfg3.N, (cfg3.win 5).flush t = true ∧ i ∈ ((cfg3.win 5).blk t).view.set := by
  have hi0 : (i 0).val < 200000 := (i 0).isLt
  have hi1 : (i 1).val < 128 := (i 1).isLt
  obtain ⟨t, ht⟩ := block_row_onto3 ⟨(i 0).val / 4000, by omega⟩
  have q0 : win3_5.index t (0 : Fin 2) = (i 0).val / 4000 := congrFun ht 0
  have q1 : win3_5.index t (1 : Fin 2) = 0 := congrFun ht 1
  refine ⟨t, flush3_5 t, ?_⟩
  rw [mem_block3]
  intro a
  match a with
  | ⟨0, _⟩ => show win3_5.index t (0 : Fin 2) * 4000 ≤ (i 0).val ∧ (i 0).val < win3_5.index t (0 : Fin 2) * 4000 + 4000; omega
  | ⟨1, _⟩ => show win3_5.index t (1 : Fin 2) * 128 ≤ (i 1).val ∧ (i 1).val < win3_5.index t (1 : Fin 2) * 128 + 128; omega

/-- THE RESULT ARRAY after the region: the layer's combine of the arrays as the region finds them. -/
theorem final3 (c : Dev nD) :
    (dat3 V c).arrAt 5 cfg3.N = Cert.Sage.layer2 (V c main_v100) (V c main_v51) (V c main_v101) (V c main_v102) (V c main_arg15) :=
  (dat3 V c).arrAt_eq_of_cover 5 _ (fun t _ => flushed3_eq V c t) (covered3)

end Cert.KernelIdeal.RegionValue

end
-- ==== Proof.KChain.lean ====
import proofs.«104268_j69020124446814_1_alg».proof.Proof.Gen.KernelIdeal.Frame
import proofs.«104268_j69020124446814_1_alg».proof.Proof.Spec
import proofs.«104268_j69020124446814_1_alg».proof.Proof.Agg
import proofs.«104268_j69020124446814_1_alg».proof.Proof.KRegion0
import proofs.«104268_j69020124446814_1_alg».proof.Proof.KRegion1
import proofs.«104268_j69020124446814_1_alg».proof.Proof.KRegion2
import proofs.«104268_j69020124446814_1_alg».proof.Proof.KRegion3

set_option maxRecDepth 16384

noncomputable section

open Idealize.ShloMosaic Idealize.ShloMosaic.TcCoe Idealize.ShloMosaic.ValueIdx
open Idealize.SL.Sem
open Idealize.ShloMosaic.Pipeline (Dat Cfg Window)
open Cert.KernelIdeal Cert.KernelIdeal.Gen

namespace Cert.KernelIdeal.ChainValue

open Cert.KernelIdeal.RegionValue

variable (m : (ℓ : Loc nD τ sig) → Buf (Elt Ideal) ℓ) (ρ : Dev nD → PrngReg)

/-! # The two results as functions of the launch memory

The program alternates four stretches of host operations with four dense regions. Each stretch writes only its
own temporaries (a neighbour mean and two transposed weight arrays), each region only its output array; every
other buffer is carried unchanged. Reading the buffer contents boundary by boundary therefore gives: the first
region's output is the items' hidden features, the second's the users', and the last two regions combine the
neighbour means of those hidden features into the two results. -/

/-! ## What a host stretch computes, at any entry contents -/

section Host

variable (V : Valuation τ sig (Elt Ideal))

/-- The references the first stretch writes. -/
abbrev hostW0 : List (Ref sig .tc) :=
  [main_v0, main_v1, main_v2, main_v3, main_c, main_v4, main_v5, main_c_0, main_v6, main_v7, main_v8, main_v9, main_v10,
   main_cst, main_v11, main_v12, main_v13, main_cst_1, main_v14, main_cst_2, main_v15, main_v16, main_v17, main_cst_3,
   main_v18, main_v19, main_v20, main_v21, main_v22, main_v23, main_v24]
/-- The references the second stretch writes. -/
abbrev hostW1 : List (Ref sig .tc) :=
  [main_v26, main_v27, main_v28, main_v29, main_c_4, main_v30, main_v31, main_c_5, main_v32, main_v33, main_v34, main_v35,
   main_v36, main_cst_6, main_v37, main_v38, main_v39, main_cst_7, main_v40, main_cst_8, main_v41, main_v42, main_v43,
   main_cst_9, main_v44, main_v45, main_v46, main_v47, main_v48, main_v49, main_v50]
/-- The references the third stretch writes. -/
abbrev hostW2 : List (Ref sig .tc) :=
  [main_v52, main_v53, main_v54, main_v55, main_c_10, main_v56, main_v57, main_c_11, main_v58, main_v59, main_v60, main_v61,
   main_v62, main_cst_12, main_v63, main_v64, main_v65, main_cst_13, main_v66, main_cst_14, main_v67, main_v68, main_v69,
   main_cst_15, main_v70, main_v71, main_v72, main_v73, main_v74, main_v75, main_v76]
/-- The references the fourth stretch writes. -/
abbrev hostW3 : List (Ref sig .tc) :=
  [main_v78, main_v79, main_v80, main_v81, main_c_16, main_v82, main_v83, main_c_17, main_v84, main_v85, main_v86, main_v87,
   main_v88, main_cst_18, main_v89, main_v90, main_v91, main_cst_19, main_v92, main_cst_20, main_v93, main_v94, main_v95,
   main_cst_21, main_v96, main_v97, main_v98, main_v99, main_v100, main_v101, main_v102]

/-- Each operation of a stretch writes one reference, and it is on the stretch's list. -/
local macro "writes_listed" : tactic =>
  `(tactic| (simp only [List.Forall, StableHlo.nullary_writes, StableHlo.unary_writes, StableHlo.binary_writes,
      StableHlo.ternary_writes, StableHlo.reshape_writes, Finset.singleton_subset_iff, List.mem_toFinset]
             repeat' apply And.intro
             all_goals exact List.mem_map_of_mem (by decide)))

theorem hostOps0_writes : (hostOps0 : List (HloOp τ sig (Elt Ideal))).Forall fun op =>
    op.writes ⊆ (hostW0.map (Proc.devRef (τ := τ) .tc)).toFinset := by writes_listed
theorem hostOps1_writes : (hostOps1 : List (HloOp τ sig (Elt Ideal))).Forall fun op =>
    op.writes ⊆ (hostW1.map (Proc.devRef (τ := τ) .tc)).toFinset := by writes_listed
theorem hostOps2_writes : (hostOps2 : List (HloOp τ sig (Elt Ideal))).Forall fun op =>
    op.writes ⊆ (hostW2.map (Proc.devRef (τ := τ) .tc)).toFinset := by writes_listed
theorem hostOps3_writes : (hostOps3 : List (HloOp τ sig (Elt Ideal))).Forall fun op =>
    op.writes ⊆ (hostW3.map (Proc.devRef (τ := τ) .tc)).toFinset := by writes_listed

/-- A stretch leaves alone every reference off its list. -/
theorem keep0 (r : Ref sig .tc) (h : r ∉ hostW0) : StableHlo.after hostOps0 V (Proc.devRef .tc r) = V (Proc.devRef .tc r) :=
  StableHlo.after_of_writes_sub hostOps0 V hostOps0_writes h
theorem keep1 (r : Ref sig .tc) (h : r ∉ hostW1) : StableHlo.after hostOps1 V (Proc.devRef .tc r) = V (Proc.devRef .tc r) :=
  StableHlo.after_of_writes_sub hostOps1 V hostOps1_writes h
theorem keep2 (r : Ref sig .tc) (h : r ∉ hostW2) : StableHlo.after hostOps2 V (Proc.devRef .tc r) = V (Proc.devRef .tc r) :=
  StableHlo.after_of_writes_sub hostOps2 V hostOps2_writes h
theorem keep3 (r : Ref sig .tc) (h : r ∉ hostW3) : StableHlo.after hostOps3 V (Proc.devRef .tc r) = V (Proc.devRef .tc r) :=
  StableHlo.after_of_writes_sub hostOps3 V hostOps3_writes h

/-- The first stretch: the users' features averaged over each item's incoming edges, and the two weight arrays
    of the user→item convolution transposed. -/
theorem host0_mean : StableHlo.after hostOps0 V (Proc.devRef .tc main_v22)
    = Cert.Sage.agg128 (F := Ideal) (V (Proc.devRef .tc main_arg0)) (V (Proc.devRef .tc main_arg2)) := by
  after_results_simp; rfl
theorem host0_wl : StableHlo.after hostOps0 V (Proc.devRef .tc main_v23)
    = Cert.Sage.tr1 (F := Ideal) (V (Proc.devRef .tc main_arg4)) := by
  after_results_simp; rfl
theorem host0_wr : StableHlo.after hostOps0 V (Proc.devRef .tc main_v24)
    = Cert.Sage.tr1 (F := Ideal) (V (Proc.devRef .tc main_arg5)) := by
  after_results_simp; rfl

/-- The second stretch: the same over the item→user edges. -/
theorem host1_mean : StableHlo.after hostOps1 V (Proc.devRef .tc main_v48)
    = Cert.Sage.agg128 (F := Ideal) (V (Proc.devRef .tc main_arg1)) (V (Proc.devRef .tc main_arg3)) := by
  after_results_simp; rfl
theorem host1_wl : StableHlo.after hostOps1 V (Proc.devRef .tc main_v49)
    = Cert.Sage.tr1 (F := Ideal) (V (Proc.devRef .tc main_arg7)) := by
  after_results_simp; rfl
theorem host1_wr : StableHlo.after hostOps1 V (Proc.devRef .tc main_v50)
    = Cert.Sage.tr1 (F := Ideal) (V (Proc.devRef .tc main_arg8)) := by
  after_results_simp; rfl

/-- The third stretch: the users' hidden features averaged over each item's incoming edges. -/
theorem host2_mean : StableHlo.after hostOps2 V (Proc.devRef .tc main_v74)
    = Cert.Sage.agg256 (F := Ideal) (V (Proc.devRef .tc main_v51)) (V (Proc.devRef .tc main_arg2)) := by
  after_results_simp; rfl
theorem host2_wl : StableHlo.after hostOps2 V (Proc.devRef .tc main_v75)
    = Cert.Sage.tr2 (F := Ideal) (V (Proc.devRef .tc main_arg10)) := by
  after_results_simp; rfl
theorem host2_wr : StableHlo.after hostOps2 V (Proc.devRef .tc main_v76)
    = Cert.Sage.tr2 (F := Ideal) (V (Proc.devRef .tc main_arg11)) := by
  after_results_simp; rfl

/-- The fourth stretch: the items' hidden features averaged over each user's incoming edges. -/
theorem host3_mean : StableHlo.after hostOps3 V (Proc.devRef .tc main_v100)
    = Cert.Sage.agg256 (F := Ideal) (V (Proc.devRef .tc main_v25)) (V (Proc.devRef .tc main_arg3)) := by
  after_results_simp; rfl
theorem host3_wl : StableHlo.after hostOps3 V (Proc.devRef .tc main_v101)
    = Cert.Sage.tr2 (F := Ideal) (V (Proc.devRef .tc main_arg13)) := by
  after_results_simp; rfl
theorem host3_wr : StableHlo.after hostOps3 V (Proc.devRef .tc main_v102)
    = Cert.Sage.tr2 (F := Ideal) (V (Proc.devRef .tc main_arg14)) := by
  after_results_simp; rfl

end Host

/-! ## The buffers, boundary by boundary -/

section Chain

variable (c : Dev nD)

-- the launch memory's array at a reference of core `c`
set_option quotPrecheck false in
local notation "arg⟨" r "⟩" => m ((c.tc : Thread nD τ).loc r)

-- the items' hidden features, from the launch arrays
set_option quotPrecheck false in
local notation "hI" => Cert.Sage.hItem arg⟨main_arg0⟩ arg⟨main_arg1⟩ arg⟨main_arg2⟩ arg⟨main_arg4⟩ arg⟨main_arg5⟩ arg⟨main_arg6⟩
-- the users' hidden features, from the launch arrays
set_option quotPrecheck false in
local notation "hU" => Cert.Sage.hUser arg⟨main_arg0⟩ arg⟨main_arg1⟩ arg⟨main_arg3⟩ arg⟨main_arg7⟩ arg⟨main_arg8⟩ arg⟨main_arg9⟩

/-! ### A region reads an input window's array and leaves it as it was -/

theorem W2_in (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem W6_in (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-! ### A buffer that nothing so far has written holds the launch memory's array -/

theorem W1_arg (r : Ref sig .tc) (h0 : r ∉ hostW0) :
    W1 m ρ c (Proc.devRef .tc r) = arg⟨r⟩ := keep0 (W0 m ρ c) r h0
theorem W2_arg (r : Ref sig .tc) (h0 : r ∉ hostW0) (h1 : ∀ w, Pipeline.arrRef spec0 w ≠ r) :
    W2 m ρ c (Proc.devRef .tc r) = arg⟨r⟩ := (W2_of_ne m ρ c r h1).trans (W1_arg m ρ c r h0)
theorem W3_arg (r : Ref sig .tc) (h0 : r ∉ hostW0) (h1 : ∀ w, Pipeline.arrRef spec0 w ≠ r) (h2 : r ∉ hostW1) :
    W3 m ρ c (Proc.devRef .tc r) = arg⟨r⟩ := (keep1 (W2 m ρ c) r h2).trans (W2_arg m ρ c r h0 h1)
theorem W4_arg (r : Ref sig .tc) (h0 : r ∉ hostW0) (h1 : ∀ w, Pipeline.arrRef spec0 w ≠ r) (h2 : r ∉ hostW1)
    (h3 : ∀ w, Pipeline.arrRef spec1 w ≠ r) :
    W4 m ρ c (Proc.devRef .tc r) = arg⟨r⟩ := (W4_of_ne m ρ c r h3).trans (W3_arg m ρ c r h0 h1 h2)
theorem W5_arg (r : Ref sig .tc) (h0 : r ∉ hostW0) (h1 : ∀ w, Pipeline.arrRef spec0 w ≠ r) (h2 : r ∉ hostW1)
    (h3 : ∀ w, Pipeline.arrRef spec1 w ≠ r) (h4 : r ∉ hostW2) :
    W5 m ρ c (Proc.devRef .tc r) = arg⟨r⟩ := (keep2 (W4 m ρ c) r h4).trans (W4_arg m ρ c r h0 h1 h2 h3)
theorem W6_arg (r : Ref sig .tc) (h0 : r ∉ hostW0) (h1 : ∀ w, Pipeline.arrRef spec0 w ≠ r) (h2 : r ∉ hostW1)
    (h3 : ∀ w, Pipeline.arrRef spec1 w ≠ r) (h4 : r ∉ hostW2) (h5 : ∀ w, Pipeline.arrRef spec2 w ≠ r) :
    W6 m ρ c (Proc.devRef .tc r) = arg⟨r⟩ := (W6_of_ne m ρ c r h5).trans (W5_arg m ρ c r h0 h1 h2 h3 h4)
theorem W7_arg (r : Ref sig .tc) (h0 : r ∉ hostW0) (h1 : ∀ w, Pipeline.arrRef spec0 w ≠ r) (h2 : r ∉ hostW1)
    (h3 : ∀ w, Pipeline.arrRef spec1 w ≠ r) (h4 : r ∉ hostW2) (h5 : ∀ w, Pipeline.arrRef spec2 w ≠ r) (h6 : r ∉ hostW3) :
    W7 m ρ c (Proc.devRef .tc r) = arg⟨r⟩ := (keep3 (W6 m ρ c) r h6).trans (W6_arg m ρ c r h0 h1 h2 h3 h4 h5)

/-! ### Region 0: the items' hidden features -/

theorem V1_mean : V1 m ρ c main_v22 = Cert.Sage.agg128 (F := Ideal) arg⟨main_arg0⟩ arg⟨main_arg2⟩ := host0_mean (W0 m ρ c)
theorem V1_wl : V1 m ρ c main_v23 = Cert.Sage.tr1 (F := Ideal) arg⟨main_arg4⟩ := host0_wl (W0 m ρ c)
theorem V1_wr : V1 m ρ c main_v24 = Cert.Sage.tr1 (F := Ideal) arg⟨main_arg5⟩ := host0_wr (W0 m ρ c)
theorem V1_x : V1 m ρ c main_arg1 = arg⟨main_arg1⟩ := W1_arg m ρ c main_arg1 (by decide)
theorem V1_b : V1 m ρ c main_arg6 = arg⟨main_arg6⟩ := W1_arg m ρ c main_arg6 (by decide)

theorem W2_hItem : W2 m ρ c (Proc.devRef .tc main_v25) = hI := by
  refine (W2_arr m ρ c 5).trans ((final0 (V1 m ρ) c).trans ?_)
  rw [V1_mean m ρ c, V1_x m ρ c, V1_wl m ρ c, V1_wr m ρ c, V1_b m ρ c, Cert.Sage.hItem, Cert.Sage.conv1]

/-! ### Region 1: the users' hidden features -/

theorem W2_x : W2 m ρ c (Proc.devRef .tc main_arg1) = arg⟨main_arg1⟩ :=
  (W2_in m ρ c 1 rfl).trans (W1_arg m ρ c main_arg1 (by decide))
theorem V3_mean : V3 m ρ c main_v48 = Cert.Sage.agg128 (F := Ideal) arg⟨main_arg1⟩ arg⟨main_arg3⟩ := by
  refine (host1_mean (W2 m ρ c)).trans ?_
  rw [W2_x m ρ c, W2_arg m ρ c main_arg3 (by decide) (by decide)]
theorem V3_wl : V3 m ρ c main_v49 = Cert.Sage.tr1 (F := Ideal) arg⟨main_arg7⟩ := by
  refine (host1_wl (W2 m ρ c)).trans ?_
  rw [W2_arg m ρ c main_arg7 (by decide) (by decide)]
theorem V3_wr : V3 m ρ c main_v50 = Cert.Sage.tr1 (F := Ideal) arg⟨main_arg8⟩ := by
  refine (host1_wr (W2 m ρ c)).trans ?_
  rw [W2_arg m ρ c main_arg8 (by decide) (by decide)]
theorem V3_x : V3 m ρ c main_arg0 = arg⟨main_arg0⟩ := W3_arg m ρ c main_arg0 (by decide) (by decide) (by decide)
theorem V3_b : V3 m ρ c main_arg9 = arg⟨main_arg9⟩ := W3_arg m ρ c main_arg9 (by decide) (by decide) (by decide)

theorem W4_hUser : W4 m ρ c (Proc.devRef .tc main_v51) = hU := by
  refine (W4_arr m ρ c 5).trans ((final1 (V3 m ρ) c).trans ?_)
  rw [V3_mean m ρ c, V3_x m ρ c, V3_wl m ρ c, V3_wr m ρ c, V3_b m ρ c, Cert.Sage.hUser, Cert.Sage.conv1]

/-! ### Region 2: the items' output features -/

theorem W4_hItem : W4 m ρ c (Proc.devRef .tc main_v25) = hI :=
  (W4_of_ne m ρ c main_v25 (by decide)).trans ((keep1 (W2 m ρ c) main_v25 (by decide)).trans (W2_hItem m ρ c))
theorem V5_mean : V5 m ρ c main_v74 = Cert.Sage.agg256 (F := Ideal) hU arg⟨main_arg2⟩ := by
  refine (host2_mean (W4 m ρ c)).trans ?_
  rw [W4_hUser m ρ c, W4_arg m ρ c main_arg2 (by decide) (by decide) (by decide) (by decide)]
theorem V5_wl : V5 m ρ c main_v75 = Cert.Sage.tr2 (F := Ideal) arg⟨main_arg10⟩ := by
  refine (host2_wl (W4 m ρ c)).trans ?_
  rw [W4_arg m ρ c main_arg10 (by decide) (by decide) (by decide) (by decide)]
theorem V5_wr : V5 m ρ c main_v76 = Cert.Sage.tr2 (F := Ideal) arg⟨main_arg11⟩ := by
  refine (host2_wr (W4 m ρ c)).trans ?_
  rw [W4_arg m ρ c main_arg11 (by decide) (by decide) (by decide) (by decide)]
theorem V5_x : V5 m ρ c main_v25 = hI := (keep2 (W4 m ρ c) main_v25 (by decide)).trans (W4_hItem m ρ c)
theorem V5_b : V5 m ρ c main_arg12 = arg⟨main_arg12⟩ :=
  W5_arg m ρ c main_arg12 (by decide) (by decide) (by decide) (by decide) (by decide)

theorem W6_outItem : W6 m ρ c (Proc.devRef .tc main_v77)
    = Cert.Sage.outItem arg⟨main_arg0⟩ arg⟨main_arg1⟩ arg⟨main_arg2⟩ arg⟨main_arg3⟩ arg⟨main_arg4⟩ arg⟨main_arg5⟩ arg⟨main_arg6⟩
        arg⟨main_arg7⟩ arg⟨main_arg8⟩ arg⟨main_arg9⟩ arg⟨main_arg10⟩ arg⟨main_arg11⟩ arg⟨main_arg12⟩ := by
  refine (W6_arr m ρ c 5).trans ((final2 (V5 m ρ) c).trans ?_)
  rw [V5_mean m ρ c, V5_x m ρ c, V5_wl m ρ c, V5_wr m ρ c, V5_b m ρ c, Cert.Sage.outItem, Cert.Sage.conv2]

/-! ### Region 3: the users' output features -/

theorem W6_hItem : W6 m ρ c (Proc.devRef .tc main_v25) = hI := (W6_in m ρ c 1 rfl).trans (V5_x m ρ c)
theorem W6_hUser : W6 m ρ c (Proc.devRef .tc main_v51) = hU :=
  (W6_of_ne m ρ c main_v51 (by decide)).trans ((keep2 (W4 m ρ c) main_v51 (by decide)).trans (W4_hUser m ρ c))
theorem V7_mean : V7 m ρ c main_v100 = Cert.Sage.agg256 (F := Ideal) hI arg⟨main_arg3⟩ := by
  refine (host3_mean (W6 m ρ c)).trans ?_
  rw [W6_hItem m ρ c, W6_arg m ρ c main_arg3 (by decide) (by decide) (by decide) (by decide) (by decide) (by decide)]
theorem V7_wl : V7 m ρ c main_v101 = Cert.Sage.tr2 (F := Ideal) arg⟨main_arg13⟩ := by
  refine (host3_wl (W6 m ρ c)).trans ?_
  rw [W6_arg m ρ c main_arg13 (by decide) (by decide) (by decide) (by decide) (by decide) (by decide)]
theorem V7_wr : V7 m ρ c main_v102 = Cert.Sage.tr2 (F := Ideal) arg⟨main_arg14⟩ := by
  refine (host3_wr (W6 m ρ c)).trans ?_
  rw [W6_arg m ρ c main_arg14 (by decide) (by decide) (by decide) (by decide) (by decide) (by decide)]
theorem V7_x : V7 m ρ c main_v51 = hU := (keep3 (W6 m ρ c) main_v51 (by decide)).trans (W6_hUser m ρ c)
theorem V7_b : V7 m ρ c main_arg15 = arg⟨main_arg15⟩ :=
  W7_arg m ρ c main_arg15 (by decide) (by decide) (by decide) (by decide) (by decide) (by decide) (by decide)

end Chain

theorem v103_eq (c : Dev nD) :
    W8 m ρ c (Proc.devRef .tc main_v103) = Cert.Sage.outUser (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg13)) (m ((c.tc : Thread nD τ).loc main_arg14)) (m ((c.tc : Thread nD τ).loc main_arg15)) := by
  refine (W8_arr m ρ c 5).trans ((final3 (V7 m ρ) c).trans ?_)
  rw [V7_mean m ρ c, V7_x m ρ c, V7_wl m ρ c, V7_wr m ρ c, V7_b m ρ c, Cert.Sage.outUser, Cert.Sage.conv2]

theorem v77_eq (c : Dev nD) :
    W8 m ρ c (Proc.devRef .tc main_v77) = Cert.Sage.outItem (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (W8_of_ne m ρ c main_v77 (by decide)).trans ((keep3 (W6 m ρ c) main_v77 (by decide)).trans (W6_outItem m ρ c))

end Cert.KernelIdeal.ChainValue

end
-- ==== Proof.RefValue.lean ====
/-
  The reference program's two results as the network functions of its arguments.

  The reference computes every stage with host operations. Its neighbour means are, operation for operation, the chain
  `Cert.Sage.agg128` / `agg256` (the records they name are equal literals), and its weight transposes are `tr1` / `tr2`.
  Each dense combine, read at row p and column q, is  Σ_k mean[p,k]·wl[k,q] + b[q] + Σ_k x[p,k]·wr[k,q]  (clipped below at
  zero in the first layer): the host's contraction is the finite sum over the contracted feature axis, the bias is
  repeated along the rows, and moving the bias behind the second sum is commutativity of addition on the extended reals.
  So the hidden features are `Cert.Sage.layer1` and the outputs `Cert.Sage.layer2` of the stages before them, and the two
  results are `Cert.Sage.outUser` and `Cert.Sage.outItem` of the sixteen arguments.
-/
import proofs.«104268_j69020124446814_1_alg».proof.Proof.Gen.ReferenceIdeal.Run
import proofs.«104268_j69020124446814_1_alg».proof.Proof.Gen.ReferenceIdeal.Read
import proofs.«104268_j69020124446814_1_alg».proof.Proof.Agg
import Idealize.ShloMosaic.Lib.ValueIdx
import Idealize.ShloMosaic.Lib.Pipeline.Value
import Idealize.ShloMosaic.PureOps.Ideal.Laws

set_option maxRecDepth 16384

noncomputable section

open Idealize.ShloMosaic Idealize.ShloMosaic.TcCoe Idealize.ShloMosaic.ValueIdx
open Idealize.SL.Sem

namespace Cert.ReferenceIdeal.RefValue

open Cert.ReferenceIdeal Cert.ReferenceIdeal.Gen Cert.ReferenceIdeal.Value

/-! ## The aggregation stages are the shared chain

Each neighbour mean of the reference is, operation for operation, the chain both programs share: the two
sides differ only in which copy of the (equal, literal) shape and dimension records they name. -/

section Chain
open Cert.ReferenceIdeal.Read
variable {F : FTy → Type} [FloatOps F]

/-! The index columns and the clipped in-degree of the user→item edges, first layer. -/
theorem row0_v1 (e : (⟨S2x1000000, .i32⟩ : BufTy).Contents (Elt F)) : val_main_v1 (F := F) e = Cert.Sage.edgeRow0 (F := F) e := rfl
theorem row1_v3 (e : (⟨S2x1000000, .i32⟩ : BufTy).Contents (Elt F)) : val_main_v3 (F := F) e = Cert.Sage.edgeRow1 (F := F) e := rfl
theorem src_v9 (e : (⟨S2x1000000, .i32⟩ : BufTy).Contents (Elt F)) : val_main_v9 (F := F) e = Cert.Sage.srcCol (F := F) e := rfl
theorem dst_v12 (e : (⟨S2x1000000, .i32⟩ : BufTy).Contents (Elt F)) : val_main_v12 (F := F) e = Cert.Sage.dstCol (F := F) e := rfl
theorem dst_v16 (e : (⟨S2x1000000, .i32⟩ : BufTy).Contents (Elt F)) : val_main_v16 (F := F) e = Cert.Sage.dstCol (F := F) e := rfl
theorem deg_v19 (e : (⟨S2x1000000, .i32⟩ : BufTy).Contents (Elt F)) : val_main_v19 (F := F) e = Cert.Sage.degClip (F := F) e := rfl

/-! The index columns and the clipped in-degree of the item→user edges, first layer. -/
theorem row0_v33 (e : (⟨S2x1000000, .i32⟩ : BufTy).Contents (Elt F)) : val_main_v33 (F := F) e = Cert.Sage.edgeRow0 (F := F) e := rfl
theorem row1_v35 (e : (⟨S2x1000000, .i32⟩ : BufTy).Contents (Elt F)) : val_main_v35 (F := F) e = Cert.Sage.edgeRow1 (F := F) e := rfl
theorem src_v41 (e : (⟨S2x1000000, .i32⟩ : BufTy).Contents (Elt F)) : val_main_v41 (F := F) e = Cert.Sage.srcCol (F := F) e := rfl
theorem dst_v44 (e : (⟨S2x1000000, .i32⟩ : BufTy).Contents (Elt F)) : val_main_v44 (F := F) e = Cert.Sage.dstCol (F := F) e := rfl
theorem dst_v48 (e : (⟨S2x1000000, .i32⟩ : BufTy).Contents (Elt F)) : val_main_v48 (F := F) e = Cert.Sage.dstCol (F := F) e := rfl
theorem deg_v51 (e : (⟨S2x1000000, .i32⟩ : BufTy).Contents (Elt F)) : val_main_v51 (F := F) e = Cert.Sage.degClip (F := F) e := rfl

/-! The index columns and the clipped in-degree of the user→item edges, second layer. -/
theorem row0_v65 (e : (⟨S2x1000000, .i32⟩ : BufTy).Contents (Elt F)) : val_main_v65 (F := F) e = Cert.Sage.edgeRow0 (F := F) e := rfl
theorem row1_v67 (e : (⟨S2x1000000, .i32⟩ : BufTy).Contents (Elt F)) : val_main_v67 (F := F) e = Cert.Sage.edgeRow1 (F := F) e := rfl
theorem src_v73 (e : (⟨S2x1000000, .i32⟩ : BufTy).Contents (Elt F)) : val_main_v73 (F := F) e = Cert.Sage.srcCol (F := F) e := rfl
theorem dst_v76 (e : (⟨S2x1000000, .i32⟩ : BufTy).Contents (Elt F)) : val_main_v76 (F := F) e = Cert.Sage.dstCol (F := F) e := rfl
theorem dst_v80 (e : (⟨S2x1000000, .i32⟩ : BufTy).Contents (Elt F)) : val_main_v80 (F := F) e = Cert.Sage.dstCol (F := F) e := rfl
theorem deg_v83 (e : (⟨S2x1000000, .i32⟩ : BufTy).Contents (Elt F)) : val_main_v83 (F := F) e = Cert.Sage.degClip (F := F) e := rfl

/-! The index columns and the clipped in-degree of the item→user edges, second layer. -/
theorem row0_v96 (e : (⟨S2x1000000, .i32⟩ : BufTy).Contents (Elt F)) : val_main_v96 (F := F) e = Cert.Sage.edgeRow0 (F := F) e := rfl
theorem row1_v98 (e : (⟨S2x1000000, .i32⟩ : BufTy).Contents (Elt F)) : val_main_v98 (F := F) e = Cert.Sage.edgeRow1 (F := F) e := rfl
theorem src_v104 (e : (⟨S2x1000000, .i32⟩ : BufTy).Contents (Elt F)) : val_main_v104 (F := F) e = Cert.Sage.srcCol (F := F) e := rfl
theorem dst_v107 (e : (⟨S2x1000000, .i32⟩ : BufTy).Contents (Elt F)) : val_main_v107 (F := F) e = Cert.Sage.dstCol (F := F) e := rfl
theorem dst_v111 (e : (⟨S2x1000000, .i32⟩ : BufTy).Contents (Elt F)) : val_main_v111 (F := F) e = Cert.Sage.dstCol (F := F) e := rfl
theorem deg_v114 (e : (⟨S2x1000000, .i32⟩ : BufTy).Contents (Elt F)) : val_main_v114 (F := F) e = Cert.Sage.degClip (F := F) e := rfl

/-- The users' features averaged over the user→item edges. -/
theorem agg_v22 (x : (⟨S200000x128, .f32⟩ : BufTy).Contents (Elt F)) (e : (⟨S2x1000000, .i32⟩ : BufTy).Contents (Elt F)) :
    val_main_v22 (F := F) x e = Cert.Sage.agg128 (F := F) x e := rfl
/-- The items' features averaged over the item→user edges. -/
theorem agg_v54 (x : (⟨S200000x128, .f32⟩ : BufTy).Contents (Elt F)) (e : (⟨S2x1000000, .i32⟩ : BufTy).Contents (Elt F)) :
    val_main_v54 (F := F) x e = Cert.Sage.agg128 (F := F) x e := rfl
/-- The weight transposes. -/
theorem tr_v23 (w : (⟨S256x128, .f32⟩ : BufTy).Contents (Elt F)) : val_main_v23 (F := F) w = Cert.Sage.tr1 (F := F) w := rfl
theorem tr_v28 (w : (⟨S256x128, .f32⟩ : BufTy).Contents (Elt F)) : val_main_v28 (F := F) w = Cert.Sage.tr1 (F := F) w := rfl
theorem tr_v55 (w : (⟨S256x128, .f32⟩ : BufTy).Contents (Elt F)) : val_main_v55 (F := F) w = Cert.Sage.tr1 (F := F) w := rfl
theorem tr_v60 (w : (⟨S256x128, .f32⟩ : BufTy).Contents (Elt F)) : val_main_v60 (F := F) w = Cert.Sage.tr1 (F := F) w := rfl
theorem tr_v87 (w : (⟨S128x256, .f32⟩ : BufTy).Contents (Elt F)) : val_main_v87 (F := F) w = Cert.Sage.tr2 (F := F) w := rfl
theorem tr_v92 (w : (⟨S128x256, .f32⟩ : BufTy).Contents (Elt F)) : val_main_v92 (F := F) w = Cert.Sage.tr2 (F := F) w := rfl
theorem tr_v118 (w : (⟨S128x256, .f32⟩ : BufTy).Contents (Elt F)) : val_main_v118 (F := F) w = Cert.Sage.tr2 (F := F) w := rfl
theorem tr_v123 (w : (⟨S128x256, .f32⟩ : BufTy).Contents (Elt F)) : val_main_v123 (F := F) w = Cert.Sage.tr2 (F := F) w := rfl

end Chain

/-! ## Each dense combine, index by index

A layer's dense part read at row `p` and column `q`: the two matrix products are sums over the contracted
feature axis, the bias is broadcast along the rows, and the reference adds the bias between the two products
where the specification adds it last. -/

section Layers
open Cert.ReferenceIdeal.Read

/-- The items' hidden features: the mean of the users' rows times the left weights, plus the bias, plus the items' own rows times the right weights, clipped at zero — the bias moved last by commutativity. -/
theorem layer_v31 (x0 x1 : (⟨S200000x128, .f32⟩ : BufTy).Contents (Elt Ideal)) (x2 : (⟨S2x1000000, .i32⟩ : BufTy).Contents (Elt Ideal)) (x4 x5 : (⟨S256x128, .f32⟩ : BufTy).Contents (Elt Ideal)) (x6 : (⟨S256, .f32⟩ : BufTy).Contents (Elt Ideal)) :
    val_main_v31 (F := Ideal) x0 x1 x2 x4 x5 x6 = Cert.Sage.layer1 (val_main_v22 (F := Ideal) x0 x2) x1 (val_main_v23 (F := Ideal) x4) (val_main_v28 (F := Ideal) x5) x6 := by
  funext i
  obtain ⟨p, q, rfl⟩ : ∃ (p : Fin 200000) (q : Fin 256), i = ix2 p q := ⟨i 0, i 1, eq_ix2 i⟩
  rw [val_main_v31_apply, val_main_v30_apply, val_main_v27_apply, val_main_v24_apply, val_main_v26_apply, val_main_v25_apply, val_main_v29_apply, val_main_call0_v0_apply, val_main_call0_cst_apply]
  generalize val_main_v22 (F := Ideal) x0 x2 = y0
  generalize val_main_v23 (F := Ideal) x4 = w0
  generalize val_main_v28 (F := Ideal) x5 = w1
  have el0 : ∀ k : Fin 128, lidx_main_v24 (ix2 p q) k = ix2 p k := fun k => funext fun a => Fin.ext (by match a with | ⟨0, _⟩ => rfl | ⟨1, _⟩ => rfl)
  have er0 : ∀ k : Fin 128, ridx_main_v24 (ix2 p q) k = ix2 k q := fun k => funext fun a => Fin.ext (by match a with | ⟨0, _⟩ => rfl | ⟨1, _⟩ => rfl)
  have el1 : ∀ k : Fin 128, lidx_main_v29 (ix2 p q) k = ix2 p k := fun k => funext fun a => Fin.ext (by match a with | ⟨0, _⟩ => rfl | ⟨1, _⟩ => rfl)
  have er1 : ∀ k : Fin 128, ridx_main_v29 (ix2 p q) k = ix2 k q := fun k => funext fun a => Fin.ext (by match a with | ⟨0, _⟩ => rfl | ⟨1, _⟩ => rfl)
  have eb : idx_main_v25 (idx_main_v26 (ix2 p q)) = ix1 q := funext fun a => Fin.ext (by match a with | ⟨0, _⟩ => rfl)
  simp only [el0, er0, el1, er1, eb, Ideal.addf_def, Ideal.maximumf_def, Ideal.ofBits_def, Ideal.ofBits_zero_f32]
  exact congrArg (fun t => max t 0) (add_right_comm _ _ _)

/-- The users' hidden features, likewise, from the items' rows along the item→user edges. -/
theorem layer_v63 (x0 x1 : (⟨S200000x128, .f32⟩ : BufTy).Contents (Elt Ideal)) (x3 : (⟨S2x1000000, .i32⟩ : BufTy).Contents (Elt Ideal)) (x7 x8 : (⟨S256x128, .f32⟩ : BufTy).Contents (Elt Ideal)) (x9 : (⟨S256, .f32⟩ : BufTy).Contents (Elt Ideal)) :
    val_main_v63 (F := Ideal) x0 x1 x3 x7 x8 x9 = Cert.Sage.layer1 (val_main_v54 (F := Ideal) x1 x3) x0 (val_main_v55 (F := Ideal) x7) (val_main_v60 (F := Ideal) x8) x9 := by
  funext i
  obtain ⟨p, q, rfl⟩ : ∃ (p : Fin 200000) (q : Fin 256), i = ix2 p q := ⟨i 0, i 1, eq_ix2 i⟩
  rw [val_main_v63_apply, val_main_v62_apply, val_main_v59_apply, val_main_v56_apply, val_main_v58_apply, val_main_v57_apply, val_main_v61_apply, val_main_call1_v0_apply, val_main_call1_cst_apply]
  generalize val_main_v54 (F := Ideal) x1 x3 = y0
  generalize val_main_v55 (F := Ideal) x7 = w0
  generalize val_main_v60 (F := Ideal) x8 = w1
  have el0 : ∀ k : Fin 128, lidx_main_v56 (ix2 p q) k = ix2 p k := fun k => funext fun a => Fin.ext (by match a with | ⟨0, _⟩ => rfl | ⟨1, _⟩ => rfl)
  have er0 : ∀ k : Fin 128, ridx_main_v56 (ix2 p q) k = ix2 k q := fun k => funext fun a => Fin.ext (by match a with | ⟨0, _⟩ => rfl | ⟨1, _⟩ => rfl)
  have el1 : ∀ k : Fin 128, lidx_main_v61 (ix2 p q) k = ix2 p k := fun k => funext fun a => Fin.ext (by match a with | ⟨0, _⟩ => rfl | ⟨1, _⟩ => rfl)
  have er1 : ∀ k : Fin 128, ridx_main_v61 (ix2 p q) k = ix2 k q := fun k => funext fun a => Fin.ext (by match a with | ⟨0, _⟩ => rfl | ⟨1, _⟩ => rfl)
  have eb : idx_main_v57 (idx_main_v58 (ix2 p q)) = ix1 q := funext fun a => Fin.ext (by match a with | ⟨0, _⟩ => rfl)
  simp only [el0, er0, el1, er1, eb, Ideal.addf_def, Ideal.maximumf_def, Ideal.ofBits_def, Ideal.ofBits_zero_f32]
  exact congrArg (fun t => max t 0) (add_right_comm _ _ _)

/-- The items' output features: the second layer over the users' hidden features (no clip). -/
theorem layer_v94 (x0 x1 : (⟨S200000x128, .f32⟩ : BufTy).Contents (Elt Ideal)) (x2 x3 : (⟨S2x1000000, .i32⟩ : BufTy).Contents (Elt Ideal)) (x4 x5 : (⟨S256x128, .f32⟩ : BufTy).Contents (Elt Ideal)) (x6 : (⟨S256, .f32⟩ : BufTy).Contents (Elt Ideal)) (x7 x8 : (⟨S256x128, .f32⟩ : BufTy).Contents (Elt Ideal)) (x9 : (⟨S256, .f32⟩ : BufTy).Contents (Elt Ideal)) (x10 x11 : (⟨S128x256, .f32⟩ : BufTy).Contents (Elt Ideal)) (x12 : (⟨S128, .f32⟩ : BufTy).Contents (Elt Ideal)) :
    val_main_v94 (F := Ideal) x0 x1 x2 x3 x4 x5 x6 x7 x8 x9 x10 x11 x12 = Cert.Sage.layer2 (val_main_v86 (F := Ideal) x0 x1 x2 x3 x7 x8 x9) (val_main_v31 (F := Ideal) x0 x1 x2 x4 x5 x6) (val_main_v87 (F := Ideal) x10) (val_main_v92 (F := Ideal) x11) x12 := by
  funext i
  obtain ⟨p, q, rfl⟩ : ∃ (p : Fin 200000) (q : Fin 128), i = ix2 p q := ⟨i 0, i 1, eq_ix2 i⟩
  rw [val_main_v94_apply, val_main_v91_apply, val_main_v88_apply, val_main_v90_apply, val_main_v89_apply, val_main_v93_apply]
  generalize val_main_v86 (F := Ideal) x0 x1 x2 x3 x7 x8 x9 = y0
  generalize val_main_v31 (F := Ideal) x0 x1 x2 x4 x5 x6 = h0
  generalize val_main_v87 (F := Ideal) x10 = w0
  generalize val_main_v92 (F := Ideal) x11 = w1
  have el0 : ∀ k : Fin 256, lidx_main_v88 (ix2 p q) k = ix2 p k := fun k => funext fun a => Fin.ext (by match a with | ⟨0, _⟩ => rfl | ⟨1, _⟩ => rfl)
  have er0 : ∀ k : Fin 256, ridx_main_v88 (ix2 p q) k = ix2 k q := fun k => funext fun a => Fin.ext (by match a with | ⟨0, _⟩ => rfl | ⟨1, _⟩ => rfl)
  have el1 : ∀ k : Fin 256, lidx_main_v93 (ix2 p q) k = ix2 p k := fun k => funext fun a => Fin.ext (by match a with | ⟨0, _⟩ => rfl | ⟨1, _⟩ => rfl)
  have er1 : ∀ k : Fin 256, ridx_main_v93 (ix2 p q) k = ix2 k q := fun k => funext fun a => Fin.ext (by match a with | ⟨0, _⟩ => rfl | ⟨1, _⟩ => rfl)
  have eb : idx_main_v89 (idx_main_v90 (ix2 p q)) = ix1 q := funext fun a => Fin.ext (by match a with | ⟨0, _⟩ => rfl)
  simp only [el0, er0, el1, er1, eb, Ideal.addf_def]
  exact add_right_comm _ _ _

/-- The users' output features: the second layer over the items' hidden features (no clip). -/
theorem layer_v125 (x0 x1 : (⟨S200000x128, .f32⟩ : BufTy).Contents (Elt Ideal)) (x2 x3 : (⟨S2x1000000, .i32⟩ : BufTy).Contents (Elt Ideal)) (x4 x5 : (⟨S256x128, .f32⟩ : BufTy).Contents (Elt Ideal)) (x6 : (⟨S256, .f32⟩ : BufTy).Contents (Elt Ideal)) (x7 x8 : (⟨S256x128, .f32⟩ : BufTy).Contents (Elt Ideal)) (x9 : (⟨S256, .f32⟩ : BufTy).Contents (Elt Ideal)) (x13 x14 : (⟨S128x256, .f32⟩ : BufTy).Contents (Elt Ideal)) (x15 : (⟨S128, .f32⟩ : BufTy).Contents (Elt Ideal)) :
    val_main_v125 (F := Ideal) x0 x1 x2 x3 x4 x5 x6 x7 x8 x9 x13 x14 x15 = Cert.Sage.layer2 (val_main_v117 (F := Ideal) x0 x1 x2 x3 x4 x5 x6) (val_main_v63 (F := Ideal) x0 x1 x3 x7 x8 x9) (val_main_v118 (F := Ideal) x13) (val_main_v123 (F := Ideal) x14) x15 := by
  funext i
  obtain ⟨p, q, rfl⟩ : ∃ (p : Fin 200000) (q : Fin 128), i = ix2 p q := ⟨i 0, i 1, eq_ix2 i⟩
  rw [val_main_v125_apply, val_main_v122_apply, val_main_v119_apply, val_main_v121_apply, val_main_v120_apply, val_main_v124_apply]
  generalize val_main_v117 (F := Ideal) x0 x1 x2 x3 x4 x5 x6 = y0
  generalize val_main_v63 (F := Ideal) x0 x1 x3 x7 x8 x9 = h0
  generalize val_main_v118 (F := Ideal) x13 = w0
  generalize val_main_v123 (F := Ideal) x14 = w1
  have el0 : ∀ k : Fin 256, lidx_main_v119 (ix2 p q) k = ix2 p k := fun k => funext fun a => Fin.ext (by match a with | ⟨0, _⟩ => rfl | ⟨1, _⟩ => rfl)
  have er0 : ∀ k : Fin 256, ridx_main_v119 (ix2 p q) k = ix2 k q := fun k => funext fun a => Fin.ext (by match a with | ⟨0, _⟩ => rfl | ⟨1, _⟩ => rfl)
  have el1 : ∀ k : Fin 256, lidx_main_v124 (ix2 p q) k = ix2 p k := fun k => funext fun a => Fin.ext (by match a with | ⟨0, _⟩ => rfl | ⟨1, _⟩ => rfl)
  have er1 : ∀ k : Fin 256, ridx_main_v124 (ix2 p q) k = ix2 k q := fun k => funext fun a => Fin.ext (by match a with | ⟨0, _⟩ => rfl | ⟨1, _⟩ => rfl)
  have eb : idx_main_v120 (idx_main_v121 (ix2 p q)) = ix1 q := funext fun a => Fin.ext (by match a with | ⟨0, _⟩ => rfl)
  simp only [el0, er0, el1, er1, eb, Ideal.addf_def]
  exact add_right_comm _ _ _

end Layers

/-! ## The second-layer means, and the two results as functions of the arguments -/

section Assembly
open Cert.ReferenceIdeal.Read

/-- The users' hidden features averaged over the user→item edges. -/
theorem agg_v86 (x0 x1 : (⟨S200000x128, .f32⟩ : BufTy).Contents (Elt Ideal)) (x2 x3 : (⟨S2x1000000, .i32⟩ : BufTy).Contents (Elt Ideal)) (x7 x8 : (⟨S256x128, .f32⟩ : BufTy).Contents (Elt Ideal)) (x9 : (⟨S256, .f32⟩ : BufTy).Contents (Elt Ideal)) :
    val_main_v86 (F := Ideal) x0 x1 x2 x3 x7 x8 x9 = Cert.Sage.agg256 (F := Ideal) (val_main_v63 (F := Ideal) x0 x1 x3 x7 x8 x9) x2 := rfl
/-- The items' hidden features averaged over the item→user edges. -/
theorem agg_v117 (x0 x1 : (⟨S200000x128, .f32⟩ : BufTy).Contents (Elt Ideal)) (x2 x3 : (⟨S2x1000000, .i32⟩ : BufTy).Contents (Elt Ideal)) (x4 x5 : (⟨S256x128, .f32⟩ : BufTy).Contents (Elt Ideal)) (x6 : (⟨S256, .f32⟩ : BufTy).Contents (Elt Ideal)) :
    val_main_v117 (F := Ideal) x0 x1 x2 x3 x4 x5 x6 = Cert.Sage.agg256 (F := Ideal) (val_main_v31 (F := Ideal) x0 x1 x2 x4 x5 x6) x3 := rfl

/-- The reference's first result is the network's users' output. -/
theorem out_v125 (x0 x1 : (⟨S200000x128, .f32⟩ : BufTy).Contents (Elt Ideal)) (x2 x3 : (⟨S2x1000000, .i32⟩ : BufTy).Contents (Elt Ideal)) (x4 x5 : (⟨S256x128, .f32⟩ : BufTy).Contents (Elt Ideal)) (x6 : (⟨S256, .f32⟩ : BufTy).Contents (Elt Ideal)) (x7 x8 : (⟨S256x128, .f32⟩ : BufTy).Contents (Elt Ideal)) (x9 : (⟨S256, .f32⟩ : BufTy).Contents (Elt Ideal)) (x13 x14 : (⟨S128x256, .f32⟩ : BufTy).Contents (Elt Ideal)) (x15 : (⟨S128, .f32⟩ : BufTy).Contents (Elt Ideal)) :
    val_main_v125 (F := Ideal) x0 x1 x2 x3 x4 x5 x6 x7 x8 x9 x13 x14 x15 = Cert.Sage.outUser x0 x1 x2 x3 x4 x5 x6 x7 x8 x9 x13 x14 x15 := by
  rw [layer_v125, agg_v117, layer_v31, layer_v63, agg_v22, agg_v54, tr_v23, tr_v28, tr_v55, tr_v60, tr_v118, tr_v123]
  rfl

/-- The reference's second result is the network's items' output. -/
theorem out_v94 (x0 x1 : (⟨S200000x128, .f32⟩ : BufTy).Contents (Elt Ideal)) (x2 x3 : (⟨S2x1000000, .i32⟩ : BufTy).Contents (Elt Ideal)) (x4 x5 : (⟨S256x128, .f32⟩ : BufTy).Contents (Elt Ideal)) (x6 : (⟨S256, .f32⟩ : BufTy).Contents (Elt Ideal)) (x7 x8 : (⟨S256x128, .f32⟩ : BufTy).Contents (Elt Ideal)) (x9 : (⟨S256, .f32⟩ : BufTy).Contents (Elt Ideal)) (x10 x11 : (⟨S128x256, .f32⟩ : BufTy).Contents (Elt Ideal)) (x12 : (⟨S128, .f32⟩ : BufTy).Contents (Elt Ideal)) :
    val_main_v94 (F := Ideal) x0 x1 x2 x3 x4 x5 x6 x7 x8 x9 x10 x11 x12 = Cert.Sage.outItem x0 x1 x2 x3 x4 x5 x6 x7 x8 x9 x10 x11 x12 := by
  rw [layer_v94, agg_v86, layer_v31, layer_v63, agg_v22, agg_v54, tr_v23, tr_v28, tr_v55, tr_v60, tr_v87, tr_v92]
  rfl

end Assembly

variable (m : (ℓ : Loc nD τ sig) → Buf (Elt Ideal) ℓ)

theorem res_out0_eq (c : Dev nD) :
    res_main_v125 (F := Ideal) m c = Cert.Sage.outUser (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg13)) (m ((c.tc : Thread nD τ).loc main_arg14)) (m ((c.tc : Thread nD τ).loc main_arg15)) := by
  exact (Cert.ReferenceIdeal.Read.val_main_v125_eq m c).trans (out_v125 _ _ _ _ _ _ _ _ _ _ _ _ _)

theorem res_out1_eq (c : Dev nD) :
    res_main_v94 (F := Ideal) m c = Cert.Sage.outItem (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  exact (Cert.ReferenceIdeal.Read.val_main_v94_eq m c).trans (out_v94 _ _ _ _ _ _ _ _ _ _ _ _ _)

end Cert.ReferenceIdeal.RefValue

end
-- ==== Proof.lean ====
/-
  Two programs for a two-layer heterogeneous GraphSAGE network on a bipartite user / item graph are the same function
  over the extended reals.

  Each layer, for each of the two edge types, forms the neighbour mean of the source features (gather the source rows,
  scatter-add them at the destinations, divide by the edge count clipped below at one) and then combines it with the
  destination nodes' own features:  mean · Wlᵀ + x · Wrᵀ + b,  clipped below at zero after the first layer only.
  The kernel program does the aggregation with host operations and the combine in a row-blocked kernel region (four
  regions: two node types, two layers), casting the operands to a narrower float format before the two matrix products
  and adding the bias last; the reference does everything with host operations and adds the bias between the two
  products.

  Over the extended reals a change of float format is the identity, a matrix product accumulated into zero and the
  host's contraction are the same finite sum, and addition is commutative and associative, so the three summands may be
  added in either order. The aggregation is spelt identically by both programs and is carried through as one opaque
  function (`Cert.Sage.agg128`, `agg256`). Hence both programs end with the same two arrays, `Cert.Sage.outUser` and
  `Cert.Sage.outItem` of the sixteen arguments. No finiteness of the inputs is used.

  The pieces: `Body0 … Body3.payload_apply` (a region's stored block at an entry), `RegionValue.final0 … final3` (a
  region's result array as the layer's combine of the arrays it finds), `ChainValue.v103_eq / v77_eq` (the kernel
  program's two results through the four regions and the host stretches between them), `RefValue.res_out0_eq /
  res_out1_eq` (the reference's two results), and the run of the four regions with the results named.
-/
import proofs.«104268_j69020124446814_1_alg».proof.Defs
import proofs.«104268_j69020124446814_1_alg».proof.Proof.Gen.Kernel
import proofs.«104268_j69020124446814_1_alg».proof.Proof.Gen.Kernel.Skeleton
import proofs.«104268_j69020124446814_1_alg».proof.Proof.Gen.Kernel.Launch
import proofs.«104268_j69020124446814_1_alg».proof.Proof.Gen.Kernel.Points
import proofs.«104268_j69020124446814_1_alg».proof.Proof.Gen.Kernel.Frame
import proofs.«104268_j69020124446814_1_alg».proof.Proof.Gen.KernelIdeal
import proofs.«104268_j69020124446814_1_alg».proof.Proof.Gen.KernelIdeal.Skeleton
import proofs.«104268_j69020124446814_1_alg».proof.Proof.Gen.KernelIdeal.Launch
import proofs.«104268_j69020124446814_1_alg».proof.Proof.Gen.KernelIdeal.Points
import proofs.«104268_j69020124446814_1_alg».proof.Proof.Gen.KernelIdeal.Frame
import proofs.«104268_j69020124446814_1_alg».proof.Proof.Gen.ReferenceIdeal
import proofs.«104268_j69020124446814_1_alg».proof.Proof.Gen.ReferenceIdeal.Run
import proofs.«104268_j69020124446814_1_alg».proof.Proof.Gen.Pre_finite_inputs
import proofs.«104268_j69020124446814_1_alg».proof.Proof.KRun
import proofs.«104268_j69020124446814_1_alg».proof.Proof.KChain
import proofs.«104268_j69020124446814_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the users' output features at `outUser` and the items' at `outItem` of the arguments, which
    agree between the two memories. -/
theorem algebraic : Cert.algebraic_KernelIdeal_ReferenceIdeal := by
  intro m ρ m' ρ' _ hagree
  refine ⟨fun c => Cert.Sage.outUser (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.Sage.outItem (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.ChainValue.v103_eq m ρ c),
        (h c).2.1.trans (Cert.KernelIdeal.ChainValue.v77_eq m ρ c), (h c).2.2⟩)
      (Cert.KernelIdeal.Gen.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15⟩ := hagree c
      rw [Cert.ReferenceIdeal.RefValue.res_out0_eq m' c, h0, h1, h2, h3, h4, h5, h6, h7, h8, h9, h13, h14, h15]
    · obtain ⟨h0, h1, h2, h3, h4, h5, h6, h7, h8, h9, h10, h11, h12, h13, h14, h15⟩ := hagree c
      rw [Cert.ReferenceIdeal.RefValue.res_out1_eq m' c, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
